-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S256x1408 : Shape := ⟨2, ![256, 1408]⟩
abbrev S16x176 : Shape := ⟨2, ![16, 176]⟩
abbrev S16x1408 : Shape := ⟨2, ![16, 1408]⟩
abbrev S176x2048 : Shape := ⟨2, ![176, 2048]⟩
abbrev S11x256 : Shape := ⟨2, ![11, 256]⟩
abbrev S11x2048 : Shape := ⟨2, ![11, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16x1408 : S_.BroadcastsInDim S16x1408 (![] : Fin 0 → Fin S16x1408.rank)
  reducesTo_S16x1408_S_d0_1 : S16x1408.ReducesTo [0, 1] S_
  bcast_S_S11x2048 : S_.BroadcastsInDim S11x2048 (![] : Fin 0 → Fin S11x2048.rank)
  reducesTo_S11x2048_S_d0_1 : S11x2048.ReducesTo [0, 1] S_

variable [Facts]

def fn_part1 {F : FTy → Type} [FloatOps F] (main_v13 : IVec S_ 1) (main_v16 : IVec S11x2048 1) : IVec S_ 1 :=
  let main_c_5 : IVec S_ 1 := constantI S_ 1 1#1
  let main_v17 : IVec S_ 1 := (fun x v => Host.reduce IntOp.andi x v reducesTo_S11x2048_S_d0_1 h_S_) main_v16 main_c_5
  let main_v18 : IVec S_ 1 := andi main_v13 main_v17
  main_v18

def fn {F : FTy → Type} [FloatOps F] (main_arg0 : FVec F S16384x2048 .f32) (main_arg1 : IVec S256x1408 32) (main_arg2 : IVec S16x176 32) (main_arg3 : FVec F S16x1408 .f32) (main_arg4 : IVec S256x1408 32) (main_arg5 : IVec S16x176 32) (main_arg6 : FVec F S16x1408 .f32) (main_arg7 : IVec S176x2048 32) (main_arg8 : IVec S11x256 32) (main_arg9 : FVec F S11x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16x1408 .f32 := Host.absf main_arg3
  let main_cst_0 : FVec F S_ .f32 := constant S_ .f32 0x7F800000#32
  let main_v5 : FVec F S16x1408 .f32 := broadcastInDim S16x1408 ![] bcast_S_S16x1408 main_cst_0
  let main_v6 : IVec S16x1408 1 := cmpf .olt main_v4 main_v5
  let main_c_1 : IVec S_ 1 := constantI S_ 1 1#1
  let main_v7 : IVec S_ 1 := (fun x v => Host.reduce IntOp.andi x v reducesTo_S16x1408_S_d0_1 h_S_) main_v6 main_c_1
  let main_v8 : IVec S_ 1 := andi main_v3 main_v7
  let main_v9 : FVec F S16x1408 .f32 := Host.absf main_arg6
  let main_cst_2 : FVec F S_ .f32 := constant S_ .f32 0x7F800000#32
  let main_v10 : FVec F S16x1408 .f32 := broadcastInDim S16x1408 ![] bcast_S_S16x1408 main_cst_2
  let main_v11 : IVec S16x1408 1 := cmpf .olt main_v9 main_v10
  let main_c_3 : IVec S_ 1 := constantI S_ 1 1#1
  let main_v12 : IVec S_ 1 := (fun x v => Host.reduce IntOp.andi x v reducesTo_S16x1408_S_d0_1 h_S_) main_v11 main_c_3
  let main_v13 : IVec S_ 1 := andi main_v8 main_v12
  let main_v14 : FVec F S11x2048 .f32 := Host.absf main_arg9
  let main_cst_4 : FVec F S_ .f32 := constant S_ .f32 0x7F800000#32
  let main_v15 : FVec F S11x2048 .f32 := broadcastInDim S11x2048 ![] bcast_S_S11x2048 main_cst_4
  let main_v16 : IVec S11x2048 1 := cmpf .olt main_v14 main_v15
  fn_part1 (F := F) main_v13 main_v16
-- ==== Kernel.lean ====
abbrev S16384x2048 : Shape := ⟨2, ![16384, 2048]⟩
abbrev S256x1408 : Shape := ⟨2, ![256, 1408]⟩
abbrev S16x176 : Shape := ⟨2, ![16, 176]⟩
abbrev S16x1408 : Shape := ⟨2, ![16, 1408]⟩
abbrev S176x2048 : Shape := ⟨2, ![176, 2048]⟩
abbrev S11x256 : Shape := ⟨2, ![11, 256]⟩
abbrev S11x2048 : Shape := ⟨2, ![11, 2048]⟩
abbrev S256x2816 : Shape := ⟨2, ![256, 2816]⟩
abbrev S16x352 : Shape := ⟨2, ![16, 352]⟩
abbrev S16x2816 : Shape := ⟨2, ![16, 2816]⟩
abbrev S8 : Shape := ⟨1, ![8]⟩
abbrev S_ : Shape := ⟨0, ![]⟩
abbrev S256x1x2816 : Shape := ⟨3, ![256, 1, 2816]⟩
abbrev S1x8x1 : Shape := ⟨3, ![1, 8, 1]⟩
abbrev S256x8x2816 : Shape := ⟨3, ![256, 8, 2816]⟩
abbrev S2048x2816 : Shape := ⟨2, ![2048, 2816]⟩
abbrev S16x352x1 : Shape := ⟨3, ![16, 352, 1]⟩
abbrev S1x1x8 : Shape := ⟨3, ![1, 1, 8]⟩
abbrev S16x352x8 : Shape := ⟨3, ![16, 352, 8]⟩
abbrev S16x128x2816 : Shape := ⟨3, ![16, 128, 2816]⟩
abbrev S176x1x2048 : Shape := ⟨3, ![176, 1, 2048]⟩
abbrev S176x8x2048 : Shape := ⟨3, ![176, 8, 2048]⟩
abbrev S1408x2048 : Shape := ⟨2, ![1408, 2048]⟩
abbrev S11x256x1 : Shape := ⟨3, ![11, 256, 1]⟩
abbrev S11x256x8 : Shape := ⟨3, ![11, 256, 8]⟩
abbrev S11x128x2048 : Shape := ⟨3, ![11, 128, 2048]⟩
abbrev S512x2048 : Shape := ⟨2, ![512, 2048]⟩
abbrev S256x2048 : Shape := ⟨2, ![256, 2048]⟩

abbrev nBuf : Space → Nat
  | .hbm => 90
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S256x1408, .i32⟩
  | .hbm, ⟨2, _⟩ => ⟨S16x176, .i32⟩
  | .hbm, ⟨3, _⟩ => ⟨S16x1408, .f32⟩
  | .hbm, ⟨4, _⟩ => ⟨S256x1408, .i32⟩
  | .hbm, ⟨5, _⟩ => ⟨S16x176, .i32⟩
  | .hbm, ⟨6, _⟩ => ⟨S16x1408, .f32⟩
  | .hbm, ⟨7, _⟩ => ⟨S176x2048, .i32⟩
  | .hbm, ⟨8, _⟩ => ⟨S11x256, .i32⟩
  | .hbm, ⟨9, _⟩ => ⟨S11x2048, .f32⟩
  | .hbm, ⟨10, _⟩ => ⟨S256x2816, .i32⟩
  | .hbm, ⟨11, _⟩ => ⟨S16x352, .i32⟩
  | .hbm, ⟨12, _⟩ => ⟨S16x2816, .f32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S256x1x2816, .i32⟩
  | .hbm, ⟨18, _⟩ => ⟨S1x8x1, .i32⟩
  | .hbm, ⟨19, _⟩ => ⟨S256x8x2816, .i32⟩
  | .hbm, ⟨20, _⟩ => ⟨S256x8x2816, .i32⟩
  | .hbm, ⟨21, _⟩ => ⟨S256x8x2816, .i32⟩
  | .hbm, ⟨22, _⟩ => ⟨S_, .i32⟩
  | .hbm, ⟨23, _⟩ => ⟨S256x8x2816, .i32⟩
  | .hbm, ⟨24, _⟩ => ⟨S256x8x2816, .i32⟩
  | .hbm, ⟨25, _⟩ => ⟨S2048x2816, .i32⟩
  | .hbm, ⟨26, _⟩ => ⟨S2048x2816, .f32⟩
  | .hbm, ⟨27, _⟩ => ⟨S8, .i32⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S16x352x1, .i32⟩
  | .hbm, ⟨32, _⟩ => ⟨S1x1x8, .i32⟩
  | .hbm, ⟨33, _⟩ => ⟨S16x352x8, .i32⟩
  | .hbm, ⟨34, _⟩ => ⟨S16x352x8, .i32⟩
  | .hbm, ⟨35, _⟩ => ⟨S16x352x8, .i32⟩
  | .hbm, ⟨36, _⟩ => ⟨S_, .i32⟩
  | .hbm, ⟨37, _⟩ => ⟨S16x352x8, .i32⟩
  | .hbm, ⟨38, _⟩ => ⟨S16x352x8, .i32⟩
  | .hbm, ⟨39, _⟩ => ⟨S16x2816, .i32⟩
  | .hbm, ⟨40, _⟩ => ⟨S_, .i32⟩
  | .hbm, ⟨41, _⟩ => ⟨S16x2816, .i32⟩
  | .hbm, ⟨42, _⟩ => ⟨S16x2816, .i32⟩
  | .hbm, ⟨43, _⟩ => ⟨S16x2816, .f32⟩
  | .hbm, ⟨44, _⟩ => ⟨S16x128x2816, .f32⟩
  | .hbm, ⟨45, _⟩ => ⟨S2048x2816, .f32⟩
  | .hbm, ⟨46, _⟩ => ⟨S16x128x2816, .f32⟩
  | .hbm, ⟨47, _⟩ => ⟨S2048x2816, .f32⟩
  | .hbm, ⟨48, _⟩ => ⟨S2048x2816, .f32⟩
  | .hbm, ⟨49, _⟩ => ⟨S2048x2816, .f32⟩
  | .hbm, ⟨50, _⟩ => ⟨S2048x2816, .bf16⟩
  | .hbm, ⟨51, _⟩ => ⟨S8, .i32⟩
  | .hbm, ⟨52, _⟩ => ⟨S_, .i32⟩
  | .hbm, ⟨53, _⟩ => ⟨S8, .i32⟩
  | .hbm, ⟨54, _⟩ => ⟨S8, .i32⟩
  | .hbm, ⟨55, _⟩ => ⟨S176x1x2048, .i32⟩
  | .hbm, ⟨56, _⟩ => ⟨S1x8x1, .i32⟩
  | .hbm, ⟨57, _⟩ => ⟨S176x8x2048, .i32⟩
  | .hbm, ⟨58, _⟩ => ⟨S176x8x2048, .i32⟩
  | .hbm, ⟨59, _⟩ => ⟨S176x8x2048, .i32⟩
  | .hbm, ⟨60, _⟩ => ⟨S_, .i32⟩
  | .hbm, ⟨61, _⟩ => ⟨S176x8x2048, .i32⟩
  | .hbm, ⟨62, _⟩ => ⟨S176x8x2048, .i32⟩
  | .hbm, ⟨63, _⟩ => ⟨S1408x2048, .i32⟩
  | .hbm, ⟨64, _⟩ => ⟨S1408x2048, .f32⟩
  | .hbm, ⟨65, _⟩ => ⟨S8, .i32⟩
  | .hbm, ⟨66, _⟩ => ⟨S_, .i32⟩
  | .hbm, ⟨67, _⟩ => ⟨S8, .i32⟩
  | .hbm, ⟨68, _⟩ => ⟨S8, .i32⟩
  | .hbm, ⟨69, _⟩ => ⟨S11x256x1, .i32⟩
  | .hbm, ⟨70, _⟩ => ⟨S1x1x8, .i32⟩
  | .hbm, ⟨71, _⟩ => ⟨S11x256x8, .i32⟩
  | .hbm, ⟨72, _⟩ => ⟨S11x256x8, .i32⟩
  | .hbm, ⟨73, _⟩ => ⟨S11x256x8, .i32⟩
  | .hbm, ⟨74, _⟩ => ⟨S_, .i32⟩
  | .hbm, ⟨75, _⟩ => ⟨S11x256x8, .i32⟩
  | .hbm, ⟨76, _⟩ => ⟨S11x256x8, .i32⟩
  | .hbm, ⟨77, _⟩ => ⟨S11x2048, .i32⟩
  | .hbm, ⟨78, _⟩ => ⟨S_, .i32⟩
  | .hbm, ⟨79, _⟩ => ⟨S11x2048, .i32⟩
  | .hbm, ⟨80, _⟩ => ⟨S11x2048, .i32⟩
  | .hbm, ⟨81, _⟩ => ⟨S11x2048, .f32⟩
  | .hbm, ⟨82, _⟩ => ⟨S11x128x2048, .f32⟩
  | .hbm, ⟨83, _⟩ => ⟨S1408x2048, .f32⟩
  | .hbm, ⟨84, _⟩ => ⟨S11x128x2048, .f32⟩
  | .hbm, ⟨85, _⟩ => ⟨S1408x2048, .f32⟩
  | .hbm, ⟨86, _⟩ => ⟨S1408x2048, .f32⟩
  | .hbm, ⟨87, _⟩ => ⟨S1408x2048, .f32⟩
  | .hbm, ⟨88, _⟩ => ⟨S1408x2048, .bf16⟩
  | .hbm, ⟨89, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2816, .bf16⟩
  | .local _ .vmem, ⟨3, _⟩ => ⟨S1408x2048, .bf16⟩
  | .local _ .vmem, ⟨4, _⟩ => ⟨S512x2048, .f32⟩
  | .local _ .vmem, ⟨5, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_c_7 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c2_i32 : BitVec 32 := 2#32
  let v4 : BitVec 32 := Scalar.addi c0_i32 c2_i32
  let c1_i32 : BitVec 32 := 1#32
  ⟨c0_i32, v4, c1_i32⟩
def k0_mult1 (k0_t1 : Fin k0_t1_loop.trips) : BitVec 32 :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v5 : BitVec 32 := Scalar.muli arg5 c1_i32_4
  let v6 : BitVec 32 := Scalar.addi c0_i32_5 v5
  let c256_i32 : BitVec 32 := 256#32
  let v7 : BitVec 32 := Scalar.muli v6 c256_i32
  v7
def k0_off1 (k0_t1 : Fin k0_t1_loop.trips) : Fin 2 → Nat :=
  let c0_i32_5 : BitVec 32 := 0#32
  let c0_i32 : BitVec 32 := 0#32
  let c1_i32 : BitVec 32 := 1#32
  let arg5 : BitVec 32 := Scf.iv c0_i32 c1_i32 k0_t1
  let c1_i32_4 : BitVec 32 := 1#32
  let v5 : BitVec 32 := Scalar.muli arg5 c1_i32_4
  let v6 : BitVec 32 := Scalar.addi c0_i32_5 v5
  let c256_i32 : BitVec 32 := 256#32
  let v7 : BitVec 32 := Scalar.muli v6 c256_i32
  let v8 : BitVec 32 := v7
  let v9 : Index := Scalar.indexCast v8
  let c0_6 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S256x1408_S256x1408_S256x2816_d1 : Shape.Concatenates [S256x1408, S256x1408] S256x2816 1
  concatenates_S16x176_S16x176_S16x352_d1 : Shape.Concatenates [S16x176, S16x176] S16x352 1
  concatenates_S16x1408_S16x1408_S16x2816_d1 : Shape.Concatenates [S16x1408, S16x1408] S16x2816 1
  bcast_S_S8 : S_.BroadcastsInDim S8 (![] : Fin 0 → Fin S8.rank)
  bcast_S256x2816_S256x1x2816_0_2 : S256x2816.BroadcastsInDim S256x1x2816 (![0, 2] : Fin 2 → Fin S256x1x2816.rank)
  bcast_S8_S1x8x1_1 : S8.BroadcastsInDim S1x8x1 (![1] : Fin 1 → Fin S1x8x1.rank)
  bcast_S256x1x2816_S256x8x2816_0_1_2 : S256x1x2816.BroadcastsInDim S256x8x2816 (![0, 1, 2] : Fin 3 → Fin S256x8x2816.rank)
  bcast_S1x8x1_S256x8x2816_0_1_2 : S1x8x1.BroadcastsInDim S256x8x2816 (![0, 1, 2] : Fin 3 → Fin S256x8x2816.rank)
  bcast_S_S256x8x2816 : S_.BroadcastsInDim S256x8x2816 (![] : Fin 0 → Fin S256x8x2816.rank)
  shapeCasts_S256x8x2816_S2048x2816 : S256x8x2816.ShapeCasts S2048x2816
  bcast_S16x352_S16x352x1_0_1 : S16x352.BroadcastsInDim S16x352x1 (![0, 1] : Fin 2 → Fin S16x352x1.rank)
  bcast_S8_S1x1x8_2 : S8.BroadcastsInDim S1x1x8 (![2] : Fin 1 → Fin S1x1x8.rank)
  bcast_S16x352x1_S16x352x8_0_1_2 : S16x352x1.BroadcastsInDim S16x352x8 (![0, 1, 2] : Fin 3 → Fin S16x352x8.rank)
  bcast_S1x1x8_S16x352x8_0_1_2 : S1x1x8.BroadcastsInDim S16x352x8 (![0, 1, 2] : Fin 3 → Fin S16x352x8.rank)
  bcast_S_S16x352x8 : S_.BroadcastsInDim S16x352x8 (![] : Fin 0 → Fin S16x352x8.rank)
  shapeCasts_S16x352x8_S16x2816 : S16x352x8.ShapeCasts S16x2816
  bcast_S_S16x2816 : S_.BroadcastsInDim S16x2816 (![] : Fin 0 → Fin S16x2816.rank)
  bcast_S16x2816_S16x128x2816_0_2 : S16x2816.BroadcastsInDim S16x128x2816 (![0, 2] : Fin 2 → Fin S16x128x2816.rank)
  shapeCasts_S16x128x2816_S2048x2816 : S16x128x2816.ShapeCasts S2048x2816
  bitsLt_bf16_f32 : FTy.bits .bf16 < FTy.bits .f32
  bcast_S176x2048_S176x1x2048_0_2 : S176x2048.BroadcastsInDim S176x1x2048 (![0, 2] : Fin 2 → Fin S176x1x2048.rank)
  bcast_S176x1x2048_S176x8x2048_0_1_2 : S176x1x2048.BroadcastsInDim S176x8x2048 (![0, 1, 2] : Fin 3 → Fin S176x8x2048.rank)
  bcast_S1x8x1_S176x8x2048_0_1_2 : S1x8x1.BroadcastsInDim S176x8x2048 (![0, 1, 2] : Fin 3 → Fin S176x8x2048.rank)
  bcast_S_S176x8x2048 : S_.BroadcastsInDim S176x8x2048 (![] : Fin 0 → Fin S176x8x2048.rank)
  shapeCasts_S176x8x2048_S1408x2048 : S176x8x2048.ShapeCasts S1408x2048
  bcast_S11x256_S11x256x1_0_1 : S11x256.BroadcastsInDim S11x256x1 (![0, 1] : Fin 2 → Fin S11x256x1.rank)
  bcast_S11x256x1_S11x256x8_0_1_2 : S11x256x1.BroadcastsInDim S11x256x8 (![0, 1, 2] : Fin 3 → Fin S11x256x8.rank)
  bcast_S1x1x8_S11x256x8_0_1_2 : S1x1x8.BroadcastsInDim S11x256x8 (![0, 1, 2] : Fin 3 → Fin S11x256x8.rank)
  bcast_S_S11x256x8 : S_.BroadcastsInDim S11x256x8 (![] : Fin 0 → Fin S11x256x8.rank)
  shapeCasts_S11x256x8_S11x2048 : S11x256x8.ShapeCasts S11x2048
  bcast_S_S11x2048 : S_.BroadcastsInDim S11x2048 (![] : Fin 0 → Fin S11x2048.rank)
  bcast_S11x2048_S11x128x2048_0_2 : S11x2048.BroadcastsInDim S11x128x2048 (![0, 2] : Fin 2 → Fin S11x128x2048.rank)
  shapeCasts_S11x128x2048_S1408x2048 : S11x128x2048.ShapeCasts S1408x2048
  inb_S2048x2816_S2048x2816_0_0 : ∀ a, (![0, 0] : Fin 2 → Nat) a + S2048x2816.size a ≤ S2048x2816.size a
  h_S2048x2816 : 0 < S2048x2816.numel
  shapeCasts_S2048x2816_S2048x2816 : S2048x2816.ShapeCasts S2048x2816
  inb_S1408x2048_S1408x2048_0_0 : ∀ a, (![0, 0] : Fin 2 → Nat) a + S1408x2048.size a ≤ S1408x2048.size a
  h_S1408x2048 : 0 < S1408x2048.numel
  shapeCasts_S1408x2048_S1408x2048 : S1408x2048.ShapeCasts S1408x2048
  h_S256x2048 : 0 < S256x2048.numel
  slices_S256x2816_o0_0_S256x1408 : S256x2816.Slices ![0, 0] S256x1408
  slices_S256x2816_o0_1408_S256x1408 : S256x2816.Slices ![0, 1408] S256x1408
  dot_S256x2048_S2048x2816_S256x2816_1_0_0_1_n_n_wf : DotDims.WF S256x2048 S2048x2816 S256x2816 [1] [0] [0] [1] [] []
  dot_S256x1408_S1408x2048_S256x2048_1_0_0_1_n_n_wf : DotDims.WF S256x1408 S1408x2048 S256x2048 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x2048.size a ≤ S512x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2816.size a ≤ S2048x2816.size a
  hwx0_1 : ∀ i : grid0.Coords, EltTy.bits .bf16 = 32 ∨ (Rect.block (s := S2048x2816) S2048x2816.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1408x2048.size a ≤ S1408x2048.size a
  hwx0_2 : ∀ i : grid0.Coords, EltTy.bits .bf16 = 32 ∨ (Rect.block (s := S1408x2048) S1408x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S256x2048_S2048x2816_S256x2816_1_0_0_1_n_n : DotDims S256x2048 S2048x2816 S256x2816 where
  lhsContracting := [1]
  rhsContracting := [0]
  lhsNonContracting := [0]
  rhsNonContracting := [1]
  lhsBatch := []
  rhsBatch := []
  wf := dot_S256x2048_S2048x2816_S256x2816_1_0_0_1_n_n_wf
def dot_S256x1408_S1408x2048_S256x2048_1_0_0_1_n_n : DotDims S256x1408 S1408x2048 S256x2048 where
  lhsContracting := [1]
  rhsContracting := [0]
  lhsNonContracting := [0]
  rhsNonContracting := [1]
  lhsBatch := []
  rhsBatch := []
  wf := dot_S256x1408_S1408x2048_S256x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2048x2816.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v68) S1408x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v69) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S256x1408 : Shape := ⟨2, ![256, 1408]⟩
abbrev S16x176 : Shape := ⟨2, ![16, 176]⟩
abbrev S16x1408 : Shape := ⟨2, ![16, 1408]⟩
abbrev S176x2048 : Shape := ⟨2, ![176, 2048]⟩
abbrev S11x256 : Shape := ⟨2, ![11, 256]⟩
abbrev S11x2048 : Shape := ⟨2, ![11, 2048]⟩
abbrev S8 : Shape := ⟨1, ![8]⟩
abbrev S_ : Shape := ⟨0, ![]⟩
abbrev S256x1x1408 : Shape := ⟨3, ![256, 1, 1408]⟩
abbrev S1x8x1 : Shape := ⟨3, ![1, 8, 1]⟩
abbrev S256x8x1408 : Shape := ⟨3, ![256, 8, 1408]⟩
abbrev S2048x1408 : Shape := ⟨2, ![2048, 1408]⟩
abbrev S16x176x1 : Shape := ⟨3, ![16, 176, 1]⟩
abbrev S1x1x8 : Shape := ⟨3, ![1, 1, 8]⟩
abbrev S16x176x8 : Shape := ⟨3, ![16, 176, 8]⟩
abbrev S16x128x1408 : Shape := ⟨3, ![16, 128, 1408]⟩
abbrev S176x1x2048 : Shape := ⟨3, ![176, 1, 2048]⟩
abbrev S176x8x2048 : Shape := ⟨3, ![176, 8, 2048]⟩
abbrev S1408x2048 : Shape := ⟨2, ![1408, 2048]⟩
abbrev S11x256x1 : Shape := ⟨3, ![11, 256, 1]⟩
abbrev S11x256x8 : Shape := ⟨3, ![11, 256, 8]⟩
abbrev S11x128x2048 : Shape := ⟨3, ![11, 128, 2048]⟩
abbrev S16384x1408 : Shape := ⟨2, ![16384, 1408]⟩

abbrev nBuf : Space → Nat
  | .hbm => 134
  | .vmem => 0
  | .smem => 0
  | _ => 0

abbrev hbmTy0_0 (i : Nat) : BufTy := match i % 128 with
  | 0 => ⟨S16384x2048, .f32⟩
  | 1 => ⟨S256x1408, .i32⟩
  | 2 => ⟨S16x176, .i32⟩
  | 3 => ⟨S16x1408, .f32⟩
  | 4 => ⟨S256x1408, .i32⟩
  | 5 => ⟨S16x176, .i32⟩
  | 6 => ⟨S16x1408, .f32⟩
  | 7 => ⟨S176x2048, .i32⟩
  | 8 => ⟨S11x256, .i32⟩
  | 9 => ⟨S11x2048, .f32⟩
  | 10 => ⟨S8, .i32⟩
  | 11 => ⟨S_, .i32⟩
  | 12 => ⟨S8, .i32⟩
  | 13 => ⟨S8, .i32⟩
  | 14 => ⟨S256x1x1408, .i32⟩
  | 15 => ⟨S1x8x1, .i32⟩
  | 16 => ⟨S256x8x1408, .i32⟩
  | 17 => ⟨S256x8x1408, .i32⟩
  | 18 => ⟨S256x8x1408, .i32⟩
  | 19 => ⟨S_, .i32⟩
  | 20 => ⟨S256x8x1408, .i32⟩
  | 21 => ⟨S256x8x1408, .i32⟩
  | 22 => ⟨S2048x1408, .i32⟩
  | 23 => ⟨S2048x1408, .f32⟩
  | 24 => ⟨S8, .i32⟩
  | 25 => ⟨S_, .i32⟩
  | 26 => ⟨S8, .i32⟩
  | 27 => ⟨S8, .i32⟩
  | 28 => ⟨S16x176x1, .i32⟩
  | 29 => ⟨S1x1x8, .i32⟩
  | 30 => ⟨S16x176x8, .i32⟩
  | 31 => ⟨S16x176x8, .i32⟩
  | 32 => ⟨S16x176x8, .i32⟩
  | 33 => ⟨S_, .i32⟩
  | 34 => ⟨S16x176x8, .i32⟩
  | 35 => ⟨S16x176x8, .i32⟩
  | 36 => ⟨S16x1408, .i32⟩
  | 37 => ⟨S_, .i32⟩
  | 38 => ⟨S16x1408, .i32⟩
  | 39 => ⟨S16x1408, .i32⟩
  | 40 => ⟨S16x1408, .f32⟩
  | 41 => ⟨S16x128x1408, .f32⟩
  | 42 => ⟨S2048x1408, .f32⟩
  | 43 => ⟨S16x128x1408, .f32⟩
  | 44 => ⟨S2048x1408, .f32⟩
  | 45 => ⟨S2048x1408, .f32⟩
  | 46 => ⟨S2048x1408, .f32⟩
  | 47 => ⟨S8, .i32⟩
  | 48 => ⟨S_, .i32⟩
  | 49 => ⟨S8, .i32⟩
  | 50 => ⟨S8, .i32⟩
  | 51 => ⟨S256x1x1408, .i32⟩
  | 52 => ⟨S1x8x1, .i32⟩
  | 53 => ⟨S256x8x1408, .i32⟩
  | 54 => ⟨S256x8x1408, .i32⟩
  | 55 => ⟨S256x8x1408, .i32⟩
  | 56 => ⟨S_, .i32⟩
  | 57 => ⟨S256x8x1408, .i32⟩
  | 58 => ⟨S256x8x1408, .i32⟩
  | 59 => ⟨S2048x1408, .i32⟩
  | 60 => ⟨S2048x1408, .f32⟩
  | 61 => ⟨S8, .i32⟩
  | 62 => ⟨S_, .i32⟩
  | 63 => ⟨S8, .i32⟩
  | 64 => ⟨S8, .i32⟩
  | 65 => ⟨S16x176x1, .i32⟩
  | 66 => ⟨S1x1x8, .i32⟩
  | 67 => ⟨S16x176x8, .i32⟩
  | 68 => ⟨S16x176x8, .i32⟩
  | 69 => ⟨S16x176x8, .i32⟩
  | 70 => ⟨S_, .i32⟩
  | 71 => ⟨S16x176x8, .i32⟩
  | 72 => ⟨S16x176x8, .i32⟩
  | 73 => ⟨S16x1408, .i32⟩
  | 74 => ⟨S_, .i32⟩
  | 75 => ⟨S16x1408, .i32⟩
  | 76 => ⟨S16x1408, .i32⟩
  | 77 => ⟨S16x1408, .f32⟩
  | 78 => ⟨S16x128x1408, .f32⟩
  | 79 => ⟨S2048x1408, .f32⟩
  | 80 => ⟨S16x128x1408, .f32⟩
  | 81 => ⟨S2048x1408, .f32⟩
  | 82 => ⟨S2048x1408, .f32⟩
  | 83 => ⟨S2048x1408, .f32⟩
  | 84 => ⟨S8, .i32⟩
  | 85 => ⟨S_, .i32⟩
  | 86 => ⟨S8, .i32⟩
  | 87 => ⟨S8, .i32⟩
  | 88 => ⟨S176x1x2048, .i32⟩
  | 89 => ⟨S1x8x1, .i32⟩
  | 90 => ⟨S176x8x2048, .i32⟩
  | 91 => ⟨S176x8x2048, .i32⟩
  | 92 => ⟨S176x8x2048, .i32⟩
  | 93 => ⟨S_, .i32⟩
  | 94 => ⟨S176x8x2048, .i32⟩
  | 95 => ⟨S176x8x2048, .i32⟩
  | 96 => ⟨S1408x2048, .i32⟩
  | 97 => ⟨S1408x2048, .f32⟩
  | 98 => ⟨S8, .i32⟩
  | 99 => ⟨S_, .i32⟩
  | 100 => ⟨S8, .i32⟩
  | 101 => ⟨S8, .i32⟩
  | 102 => ⟨S11x256x1, .i32⟩
  | 103 => ⟨S1x1x8, .i32⟩
  | 104 => ⟨S11x256x8, .i32⟩
  | 105 => ⟨S11x256x8, .i32⟩
  | 106 => ⟨S11x256x8, .i32⟩
  | 107 => ⟨S_, .i32⟩
  | 108 => ⟨S11x256x8, .i32⟩
  | 109 => ⟨S11x256x8, .i32⟩
  | 110 => ⟨S11x2048, .i32⟩
  | 111 => ⟨S_, .i32⟩
  | 112 => ⟨S11x2048, .i32⟩
  | 113 => ⟨S11x2048, .i32⟩
  | 114 => ⟨S11x2048, .f32⟩
  | 115 => ⟨S11x128x2048, .f32⟩
  | 116 => ⟨S1408x2048, .f32⟩
  | 117 => ⟨S11x128x2048, .f32⟩
  | 118 => ⟨S1408x2048, .f32⟩
  | 119 => ⟨S1408x2048, .f32⟩
  | 120 => ⟨S1408x2048, .f32⟩
  | 121 => ⟨S16384x1408, .f32⟩
  | 122 => ⟨S16384x1408, .f32⟩
  | 123 => ⟨S16384x1408, .f32⟩
  | 124 => ⟨S_, .f32⟩
  | 125 => ⟨S16384x1408, .f32⟩
  | 126 => ⟨S16384x1408, .f32⟩
  | 127 => ⟨S_, .f32⟩
  | _ => ⟨S16384x2048, .f32⟩

abbrev hbmTy0_1 (i : Nat) : BufTy := match i % 128 with
  | 0 => ⟨S16384x1408, .f32⟩
  | 1 => ⟨S16384x1408, .f32⟩
  | 2 => ⟨S16384x1408, .f32⟩
  | 3 => ⟨S16384x1408, .f32⟩
  | 4 => ⟨S16384x1408, .f32⟩
  | 5 => ⟨S16384x2048, .f32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_7 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_c_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_10 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_11 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_c_12 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_c_13 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_call0_v0 : Ref sig .tc := ⟨.hbm, 122, rfl⟩
abbrev main_call0_v1 : Ref sig .tc := ⟨.hbm, 123, rfl⟩
abbrev main_call0_cst : Ref sig .tc := ⟨.hbm, 124, rfl⟩
abbrev main_call0_v2 : Ref sig .tc := ⟨.hbm, 125, rfl⟩
abbrev main_call0_v3 : Ref sig .tc := ⟨.hbm, 126, rfl⟩
abbrev main_call0_cst_0 : Ref sig .tc := ⟨.hbm, 127, rfl⟩
abbrev main_call0_v4 : Ref sig .tc := ⟨.hbm, 128, rfl⟩
abbrev main_call0_v5 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S256x1408_S256x1x1408_0_2 : S256x1408.BroadcastsInDim S256x1x1408 (![0, 2] : Fin 2 → Fin S256x1x1408.rank)
  bcast_S8_S1x8x1_1 : S8.BroadcastsInDim S1x8x1 (![1] : Fin 1 → Fin S1x8x1.rank)
  bcast_S256x1x1408_S256x8x1408_0_1_2 : S256x1x1408.BroadcastsInDim S256x8x1408 (![0, 1, 2] : Fin 3 → Fin S256x8x1408.rank)
  bcast_S1x8x1_S256x8x1408_0_1_2 : S1x8x1.BroadcastsInDim S256x8x1408 (![0, 1, 2] : Fin 3 → Fin S256x8x1408.rank)
  bcast_S_S256x8x1408 : S_.BroadcastsInDim S256x8x1408 (![] : Fin 0 → Fin S256x8x1408.rank)
  shapeCasts_S256x8x1408_S2048x1408 : S256x8x1408.ShapeCasts S2048x1408
  bcast_S16x176_S16x176x1_0_1 : S16x176.BroadcastsInDim S16x176x1 (![0, 1] : Fin 2 → Fin S16x176x1.rank)
  bcast_S8_S1x1x8_2 : S8.BroadcastsInDim S1x1x8 (![2] : Fin 1 → Fin S1x1x8.rank)
  bcast_S16x176x1_S16x176x8_0_1_2 : S16x176x1.BroadcastsInDim S16x176x8 (![0, 1, 2] : Fin 3 → Fin S16x176x8.rank)
  bcast_S1x1x8_S16x176x8_0_1_2 : S1x1x8.BroadcastsInDim S16x176x8 (![0, 1, 2] : Fin 3 → Fin S16x176x8.rank)
  bcast_S_S16x176x8 : S_.BroadcastsInDim S16x176x8 (![] : Fin 0 → Fin S16x176x8.rank)
  shapeCasts_S16x176x8_S16x1408 : S16x176x8.ShapeCasts S16x1408
  bcast_S_S16x1408 : S_.BroadcastsInDim S16x1408 (![] : Fin 0 → Fin S16x1408.rank)
  bcast_S16x1408_S16x128x1408_0_2 : S16x1408.BroadcastsInDim S16x128x1408 (![0, 2] : Fin 2 → Fin S16x128x1408.rank)
  shapeCasts_S16x128x1408_S2048x1408 : S16x128x1408.ShapeCasts S2048x1408
  bcast_S176x2048_S176x1x2048_0_2 : S176x2048.BroadcastsInDim S176x1x2048 (![0, 2] : Fin 2 → Fin S176x1x2048.rank)
  bcast_S176x1x2048_S176x8x2048_0_1_2 : S176x1x2048.BroadcastsInDim S176x8x2048 (![0, 1, 2] : Fin 3 → Fin S176x8x2048.rank)
  bcast_S1x8x1_S176x8x2048_0_1_2 : S1x8x1.BroadcastsInDim S176x8x2048 (![0, 1, 2] : Fin 3 → Fin S176x8x2048.rank)
  bcast_S_S176x8x2048 : S_.BroadcastsInDim S176x8x2048 (![] : Fin 0 → Fin S176x8x2048.rank)
  shapeCasts_S176x8x2048_S1408x2048 : S176x8x2048.ShapeCasts S1408x2048
  bcast_S11x256_S11x256x1_0_1 : S11x256.BroadcastsInDim S11x256x1 (![0, 1] : Fin 2 → Fin S11x256x1.rank)
  bcast_S11x256x1_S11x256x8_0_1_2 : S11x256x1.BroadcastsInDim S11x256x8 (![0, 1, 2] : Fin 3 → Fin S11x256x8.rank)
  bcast_S1x1x8_S11x256x8_0_1_2 : S1x1x8.BroadcastsInDim S11x256x8 (![0, 1, 2] : Fin 3 → Fin S11x256x8.rank)
  bcast_S_S11x256x8 : S_.BroadcastsInDim S11x256x8 (![] : Fin 0 → Fin S11x256x8.rank)
  shapeCasts_S11x256x8_S11x2048 : S11x256x8.ShapeCasts S11x2048
  bcast_S_S11x2048 : S_.BroadcastsInDim S11x2048 (![] : Fin 0 → Fin S11x2048.rank)
  bcast_S11x2048_S11x128x2048_0_2 : S11x2048.BroadcastsInDim S11x128x2048 (![0, 2] : Fin 2 → Fin S11x128x2048.rank)
  shapeCasts_S11x128x2048_S1408x2048 : S11x128x2048.ShapeCasts S1408x2048
  bcast_S_S16384x1408 : S_.BroadcastsInDim S16384x1408 (![] : Fin 0 → Fin S16384x1408.rank)
  dot_S16384x2048_S2048x1408_S16384x1408_1_0_0_1_n_n_wf : DotDims.WF S16384x2048 S2048x1408 S16384x1408 [1] [0] [0] [1] [] []
  dot_S16384x1408_S1408x2048_S16384x2048_1_0_0_1_n_n_wf : DotDims.WF S16384x1408 S1408x2048 S16384x2048 [1] [0] [0] [1] [] []

variable [Facts₀]

def dot_S16384x2048_S2048x1408_S16384x1408_1_0_0_1_n_n : DotDims S16384x2048 S2048x1408 S16384x1408 where
  lhsContracting := [1]
  rhsContracting := [0]
  lhsNonContracting := [0]
  rhsNonContracting := [1]
  lhsBatch := []
  rhsBatch := []
  wf := dot_S16384x2048_S2048x1408_S16384x1408_1_0_0_1_n_n_wf
def dot_S16384x1408_S1408x2048_S16384x2048_1_0_0_1_n_n : DotDims S16384x1408 S1408x2048 S16384x2048 where
  lhsContracting := [1]
  rhsContracting := [0]
  lhsNonContracting := [0]
  rhsNonContracting := [1]
  lhsBatch := []
  rhsBatch := []
  wf := dot_S16384x1408_S1408x2048_S16384x2048_1_0_0_1_n_n_wf

class Facts : Prop extends Facts₀ where

variable [Facts]
-- ==== Proof.Spec.lean ====
/-
  The function both programs compute, stated once over plain index types.

  For a token row `t` and an intermediate channel `n` let
    g = Σ_k x[t,k] · Wg[k,n]      (gate projection)
    u = Σ_k x[t,k] · Wu[k,n]      (up projection)
  The gated activation is  (g · σ(g)) · u  with σ(g) = 1 / (1 + e^(-g)), and the output is
    out[t,j] = Σ_n ((g · σ(g)) · u) · Wd[n,j].
  The value at row `t` depends on `x` through row `t` only, so a block of rows of the output
  is the same function of the matching block of rows of `x`.
-/
import Idealize.ShloMosaic.PureOps.Ideal
import Idealize.ShloMosaic.Lib.ValueIdx

noncomputable section

open scoped BigOperators

namespace Cert.Moe

open Idealize.ShloMosaic Idealize.ShloMosaic.ValueIdx

/-- A gate column of the fused gate|up weight: columns `0 … 1407`. -/
abbrev gateCol (n : Fin 1408) : Fin 2816 := ⟨n.val, by have := n.isLt; omega⟩
/-- An up column of the fused gate|up weight: columns `1408 … 2815`. -/
abbrev upCol (n : Fin 1408) : Fin 2816 := ⟨1408 + n.val, by have := n.isLt; omega⟩

variable {T : Nat}

/-- Row `t` of `x` against column `n` of a `2048 × 1408` weight. -/
def projF (x : Fin T → Fin 2048 → EReal) (W : Fin 2048 → Fin 1408 → EReal) (t : Fin T) (n : Fin 1408) : EReal :=
  ∑ k : Fin 2048, x t k * W k n

/-- The gated activation `(g · σ(g)) · u` of row `t` at channel `n`. -/
def actF (x : Fin T → Fin 2048 → EReal) (Wg Wu : Fin 2048 → Fin 1408 → EReal) (t : Fin T) (n : Fin 1408) : EReal :=
  projF x Wg t n * Ideal.logistic (projF x Wg t n) * projF x Wu t n

/-- The expert's output at row `t`, column `j`. -/
def moeF (x : Fin T → Fin 2048 → EReal) (Wg Wu : Fin 2048 → Fin 1408 → EReal) (Wd : Fin 1408 → Fin 2048 → EReal)
    (t : Fin T) (j : Fin 2048) : EReal :=
  ∑ n : Fin 1408, actF x Wg Wu t n * Wd n j

/-- The output row depends on `x` through that row only: two inputs (of any heights) that agree on a
    pair of rows give the same output on that pair of rows. -/
theorem moeF_row {T' : Nat} (x : Fin T → Fin 2048 → EReal) (x' : Fin T' → Fin 2048 → EReal)
    (Wg Wu : Fin 2048 → Fin 1408 → EReal) (Wd : Fin 1408 → Fin 2048 → EReal) (t : Fin T) (t' : Fin T')
    (h : ∀ k, x t k = x' t' k) (j : Fin 2048) :
    moeF x Wg Wu Wd t j = moeF x' Wg Wu Wd t' j := by
  have hp : ∀ (W : Fin 2048 → Fin 1408 → EReal) (n : Fin 1408), projF x W t n = projF x' W t' n := fun W n => by
    unfold projF; exact Finset.sum_congr rfl fun k _ => by rw [h k]
  unfold moeF actF
  exact Finset.sum_congr rfl fun n _ => by rw [hp Wg n, hp Wu n]

/-- The whole output array: entry `(t, j)` is `moeF … t j`. -/
def moeArr (x : Fin 16384 → Fin 2048 → EReal) (Wg Wu : Fin 2048 → Fin 1408 → EReal) (Wd : Fin 1408 → Fin 2048 → EReal) :
    (⟨2, ![16384, 2048]⟩ : Shape).Idx → EReal :=
  fun i => moeF x Wg Wu Wd (i 0) (i 1)

theorem moeArr_ix2 (x : Fin 16384 → Fin 2048 → EReal) (Wg Wu : Fin 2048 → Fin 1408 → EReal) (Wd : Fin 1408 → Fin 2048 → EReal)
    (t : Fin 16384) (j : Fin 2048) : moeArr x Wg Wu Wd (ix2 t j) = moeF x Wg Wu Wd t j := rfl

end Cert.Moe

end
-- ==== Proof.Dequant.lean ====
/-
  One entry of a GPTQ-dequantized weight, from the three words it depends on.

  Eight 4-bit fields are packed in each 32-bit word. Entry `(k, n)` of the dequantized weight reads
  field `k % 8` of the packed weight word at `(k / 8, n)`, field `n % 8` of the packed zero-point word
  at `(k / 128, n / 8)` (128 input rows share a group), and the group's scale at `(k / 128, n)`:
    W[k, n] = (q − (z + 1)) · s.
-/
import Idealize.ShloMosaic.PureOps.Ideal
import Idealize.ShloMosaic.Lib.ValueIdx

noncomputable section

namespace Cert.Moe

open Idealize.ShloMosaic

/-- Field `a` (four bits wide) of a packed word: shift right by `4 · a`, keep the low four bits. -/
def nibble (w : BitVec 32) (a : Nat) : BitVec 32 :=
  IntOp.andi (IntOp.shrsi .host w (IntOp.muli 4#32 (BitVec.ofNat 32 a))) 15#32

variable {F : FTy → Type} [FloatOps F]

/-- `(q − (z + 1)) · s` with `q` field `a` of the weight word, `z` field `b` of the zero-point word. -/
def deqElt (qw : BitVec 32) (a : Nat) (qz : BitVec 32) (b : Nat) (s : F .f32) : F .f32 :=
  FloatOps.mulf (FloatOps.subf (FloatOps.sitofp .f32 (nibble qw a))
    (FloatOps.sitofp .f32 (IntOp.addi (nibble qz b) 1#32))) s

end Cert.Moe

end
-- ==== Proof.KChain.lean ====
import proofs.«431011_j53042846105776_3_alg».proof.Proof.Gen.KernelIdeal
import proofs.«431011_j53042846105776_3_alg».proof.Proof.Dequant
import Idealize.ShloMosaic.Lib.Pipeline.Value
import Idealize.ShloMosaic.Lib.ValueIdx

noncomputable section

open scoped BigOperators

namespace Cert.Moe.KChain

open Cert.KernelIdeal Cert.KernelIdeal.Gen Idealize.ShloMosaic Idealize.ShloMosaic.TcCoe Idealize.ShloMosaic.ValueIdx Cert.Moe

variable {F : FTy → Type} [FloatOps F]

/-- The shift amounts `4 · (0 … 7)`, one per 4-bit field of a word. -/
def shifts : (⟨S8, .i32⟩ : BufTy).Contents (Elt F) :=
  muli (broadcastInDim S8 ![] bcast_S_S8 (constantI S_ 32 4#32)) (iotaInDim S8 32 0)

/-- The eight fields of every packed weight word laid out along the input axis, as floats: `[256, 2816] → [2048, 2816]`. -/
def unpackRows (Q : (⟨S256x2816, .i32⟩ : BufTy).Contents (Elt F)) : (⟨S2048x2816, .f32⟩ : BufTy).Contents (Elt F) :=
  sitofp .f32 (shapeCast _ (andi (Host.shrsi
      (broadcastInDim S256x8x2816 ![0, 1, 2] bcast_S256x1x2816_S256x8x2816_0_1_2 (broadcastInDim S256x1x2816 ![0, 2] bcast_S256x2816_S256x1x2816_0_2 Q))
      (broadcastInDim S256x8x2816 ![0, 1, 2] bcast_S1x8x1_S256x8x2816_0_1_2 (broadcastInDim S1x8x1 ![1] bcast_S8_S1x8x1_1 (shifts (F := F)))))
    (broadcastInDim S256x8x2816 ![] bcast_S_S256x8x2816 (constantI S_ 32 15#32))) shapeCasts_S256x8x2816_S2048x2816)

/-- The eight fields of every packed zero-point word laid out along the output axis, plus one, as floats: `[16, 352] → [16, 2816]`. -/
def unpackCols (Z : (⟨S16x352, .i32⟩ : BufTy).Contents (Elt F)) : (⟨S16x2816, .f32⟩ : BufTy).Contents (Elt F) :=
  sitofp .f32 (addi (shapeCast _ (andi (Host.shrsi
      (broadcastInDim S16x352x8 ![0, 1, 2] bcast_S16x352x1_S16x352x8_0_1_2 (broadcastInDim S16x352x1 ![0, 1] bcast_S16x352_S16x352x1_0_1 Z))
      (broadcastInDim S16x352x8 ![0, 1, 2] bcast_S1x1x8_S16x352x8_0_1_2 (broadcastInDim S1x1x8 ![2] bcast_S8_S1x1x8_2 (shifts (F := F)))))
    (broadcastInDim S16x352x8 ![] bcast_S_S16x352x8 (constantI S_ 32 15#32))) shapeCasts_S16x352x8_S16x2816)
    (broadcastInDim S16x2816 ![] bcast_S_S16x2816 (constantI S_ 32 1#32)))

/-- Each group's row repeated over the group's 128 input rows: `[16, 2816] → [2048, 2816]`. -/
def repeatGroups (Y : (⟨S16x2816, .f32⟩ : BufTy).Contents (Elt F)) : (⟨S2048x2816, .f32⟩ : BufTy).Contents (Elt F) :=
  shapeCast _ (broadcastInDim S16x128x2816 ![0, 2] bcast_S16x2816_S16x128x2816_0_2 Y) shapeCasts_S16x128x2816_S2048x2816

/-- The fused gate|up weight before its cast to bf16: `(q − (z + 1)) · s`, entry by entry. -/
def kGU (Q : (⟨S256x2816, .i32⟩ : BufTy).Contents (Elt F)) (Z : (⟨S16x352, .i32⟩ : BufTy).Contents (Elt F))
    (S : (⟨S16x2816, .f32⟩ : BufTy).Contents (Elt F)) : (⟨S2048x2816, .f32⟩ : BufTy).Contents (Elt F) :=
  mulf (subf (unpackRows Q) (repeatGroups (unpackCols Z))) (repeatGroups S)

/-! ### Each layout operation read at explicit coordinates -/

section Layout
variable {α : Type}

/-- A scalar broadcast to any shape reads the scalar at every index. -/
theorem bcScalar_apply {t : Shape} (h : S_.BroadcastsInDim t (![] : Fin 0 → Fin t.rank)) (x : S_.Idx → α) (j : t.Idx) :
    broadcastInDim t ![] h x j = x ix0 :=
  broadcastInDim_apply _ h x j ix0 (fun a => a.elim0)

/-- `[256, 2816] → [256, 1, 2816]` on axes 0 and 2: entry `(r, u, n)` is entry `(r, n)`. -/
theorem bcRows1_apply (x : S256x2816.Idx → α) (r : Fin 256) (u : Fin 1) (n : Fin 2816) :
    broadcastInDim S256x1x2816 ![0, 2] bcast_S256x2816_S256x1x2816_0_2 x (ix3 r u n) = x (ix2 r n) :=
  broadcastInDim_apply _ bcast_S256x2816_S256x1x2816_0_2 x (ix3 r u n) (ix2 r n) (fun a => match a with
    | ⟨0, _⟩ => by show r.val = if (256 : Nat) = 1 then 0 else r.val; rw [if_neg (by decide)]
    | ⟨1, _⟩ => by show n.val = if (2816 : Nat) = 1 then 0 else n.val; rw [if_neg (by decide)])

/-- `[256, 1, 2816] → [256, 8, 2816]`: the unit axis is repeated eight times. -/
theorem bcRows2_apply (x : S256x1x2816.Idx → α) (r : Fin 256) (a : Fin 8) (n : Fin 2816) :
    broadcastInDim S256x8x2816 ![0, 1, 2] bcast_S256x1x2816_S256x8x2816_0_1_2 x (ix3 r a n)
      = x (ix3 r (⟨0, Nat.one_pos⟩ : Fin 1) n) :=
  broadcastInDim_apply _ bcast_S256x1x2816_S256x8x2816_0_1_2 x (ix3 r a n) (ix3 r (⟨0, Nat.one_pos⟩ : Fin 1) n) (fun b => match b with
    | ⟨0, _⟩ => by show r.val = if (256 : Nat) = 1 then 0 else r.val; rw [if_neg (by decide)]
    | ⟨1, _⟩ => by show 0 = if (1 : Nat) = 1 then 0 else a.val; rw [if_pos rfl]
    | ⟨2, _⟩ => by show n.val = if (2816 : Nat) = 1 then 0 else n.val; rw [if_neg (by decide)])

/-- `[8] → [1, 8, 1]` on axis 1. -/
theorem bcMid1_apply (x : S8.Idx → α) (u : Fin 1) (a : Fin 8) (v : Fin 1) :
    broadcastInDim S1x8x1 ![1] bcast_S8_S1x8x1_1 x (ix3 u a v) = x (ix1 a) :=
  broadcastInDim_apply _ bcast_S8_S1x8x1_1 x (ix3 u a v) (ix1 a) (fun b => match b with
    | ⟨0, _⟩ => by show a.val = if (8 : Nat) = 1 then 0 else a.val; rw [if_neg (by decide)])

/-- `[1, 8, 1] → [256, 8, 2816]`: both unit axes are repeated. -/
theorem bcMid2_apply (x : S1x8x1.Idx → α) (r : Fin 256) (a : Fin 8) (n : Fin 2816) :
    broadcastInDim S256x8x2816 ![0, 1, 2] bcast_S1x8x1_S256x8x2816_0_1_2 x (ix3 r a n)
      = x (ix3 (⟨0, Nat.one_pos⟩ : Fin 1) a (⟨0, Nat.one_pos⟩ : Fin 1)) :=
  broadcastInDim_apply _ bcast_S1x8x1_S256x8x2816_0_1_2 x (ix3 r a n) (ix3 (⟨0, Nat.one_pos⟩ : Fin 1) a (⟨0, Nat.one_pos⟩ : Fin 1)) (fun b => match b with
    | ⟨0, _⟩ => by show 0 = if (1 : Nat) = 1 then 0 else r.val; rw [if_pos rfl]
    | ⟨1, _⟩ => by show a.val = if (8 : Nat) = 1 then 0 else a.val; rw [if_neg (by decide)]
    | ⟨2, _⟩ => by show 0 = if (1 : Nat) = 1 then 0 else n.val; rw [if_pos rfl])

/-- The reshape `[256, 8, 2816] → [2048, 2816]`: row `k` is `(k / 8, k % 8)` (row-major positions agree). -/
theorem reshapeRows_apply (y : S256x8x2816.Idx → α) (k : Fin 2048) (n : Fin 2816) :
    shapeCast S2048x2816 y shapeCasts_S256x8x2816_S2048x2816 (ix2 k n)
      = y (ix3 (⟨k.val / 8, by have := k.isLt; omega⟩ : Fin 256) (⟨k.val % 8, Nat.mod_lt _ (by decide)⟩ : Fin 8) n) :=
  shapeCast_apply y shapeCasts_S256x8x2816_S2048x2816 (ix2 k n) _
    (by rewrite [Shape.rowMajor_val_three, Shape.rowMajor_val_two]
        have hk : k.val < 2048 := k.isLt
        have hn : n.val < 2816 := n.isLt
        show (k.val / 8 * 8 + k.val % 8) * 2816 + n.val = k.val * 2816 + n.val
        omega)

/-- `[16, 352] → [16, 352, 1]` on axes 0 and 1. -/
theorem bcCols1_apply (x : S16x352.Idx → α) (g : Fin 16) (c : Fin 352) (u : Fin 1) :
    broadcastInDim S16x352x1 ![0, 1] bcast_S16x352_S16x352x1_0_1 x (ix3 g c u) = x (ix2 g c) :=
  broadcastInDim_apply _ bcast_S16x352_S16x352x1_0_1 x (ix3 g c u) (ix2 g c) (fun a => match a with
    | ⟨0, _⟩ => by show g.val = if (16 : Nat) = 1 then 0 else g.val; rw [if_neg (by decide)]
    | ⟨1, _⟩ => by show c.val = if (352 : Nat) = 1 then 0 else c.val; rw [if_neg (by decide)])

/-- `[16, 352, 1] → [16, 352, 8]`: the unit axis is repeated eight times. -/
theorem bcCols2_apply (x : S16x352x1.Idx → α) (g : Fin 16) (c : Fin 352) (a : Fin 8) :
    broadcastInDim S16x352x8 ![0, 1, 2] bcast_S16x352x1_S16x352x8_0_1_2 x (ix3 g c a)
      = x (ix3 g c (⟨0, Nat.one_pos⟩ : Fin 1)) :=
  broadcastInDim_apply _ bcast_S16x352x1_S16x352x8_0_1_2 x (ix3 g c a) (ix3 g c (⟨0, Nat.one_pos⟩ : Fin 1)) (fun b => match b with
    | ⟨0, _⟩ => by show g.val = if (16 : Nat) = 1 then 0 else g.val; rw [if_neg (by decide)]
    | ⟨1, _⟩ => by show c.val = if (352 : Nat) = 1 then 0 else c.val; rw [if_neg (by decide)]
    | ⟨2, _⟩ => by show 0 = if (1 : Nat) = 1 then 0 else a.val; rw [if_pos rfl])

/-- `[8] → [1, 1, 8]` on axis 2. -/
theorem bcLast1_apply (x : S8.Idx → α) (u : Fin 1) (v : Fin 1) (a : Fin 8) :
    broadcastInDim S1x1x8 ![2] bcast_S8_S1x1x8_2 x (ix3 u v a) = x (ix1 a) :=
  broadcastInDim_apply _ bcast_S8_S1x1x8_2 x (ix3 u v a) (ix1 a) (fun b => match b with
    | ⟨0, _⟩ => by show a.val = if (8 : Nat) = 1 then 0 else a.val; rw [if_neg (by decide)])

/-- `[1, 1, 8] → [16, 352, 8]`: both unit axes are repeated. -/
theorem bcLast2_apply (x : S1x1x8.Idx → α) (g : Fin 16) (c : Fin 352) (a : Fin 8) :
    broadcastInDim S16x352x8 ![0, 1, 2] bcast_S1x1x8_S16x352x8_0_1_2 x (ix3 g c a)
      = x (ix3 (⟨0, Nat.one_pos⟩ : Fin 1) (⟨0, Nat.one_pos⟩ : Fin 1) a) :=
  broadcastInDim_apply _ bcast_S1x1x8_S16x352x8_0_1_2 x (ix3 g c a) (ix3 (⟨0, Nat.one_pos⟩ : Fin 1) (⟨0, Nat.one_pos⟩ : Fin 1) a) (fun b => match b with
    | ⟨0, _⟩ => by show 0 = if (1 : Nat) = 1 then 0 else g.val; rw [if_pos rfl]
    | ⟨1, _⟩ => by show 0 = if (1 : Nat) = 1 then 0 else c.val; rw [if_pos rfl]
    | ⟨2, _⟩ => by show a.val = if (8 : Nat) = 1 then 0 else a.val; rw [if_neg (by decide)])

/-- The reshape `[16, 352, 8] → [16, 2816]`: column `n` is `(n / 8, n % 8)` (row-major positions agree). -/
theorem reshapeCols_apply (y : S16x352x8.Idx → α) (g : Fin 16) (n : Fin 2816) :
    shapeCast S16x2816 y shapeCasts_S16x352x8_S16x2816 (ix2 g n)
      = y (ix3 g (⟨n.val / 8, by have := n.isLt; omega⟩ : Fin 352) (⟨n.val % 8, Nat.mod_lt _ (by decide)⟩ : Fin 8)) :=
  shapeCast_apply y shapeCasts_S16x352x8_S16x2816 (ix2 g n) _
    (by rewrite [Shape.rowMajor_val_three, Shape.rowMajor_val_two]
        have hg : g.val < 16 := g.isLt
        have hn : n.val < 2816 := n.isLt
        show (g.val * 352 + n.val / 8) * 8 + n.val % 8 = g.val * 2816 + n.val
        omega)

/-- `[16, 2816] → [16, 128, 2816]` on axes 0 and 2: entry `(g, t, n)` is entry `(g, n)`. -/
theorem bcGroups_apply (x : S16x2816.Idx → α) (g : Fin 16) (t : Fin 128) (n : Fin 2816) :
    broadcastInDim S16x128x2816 ![0, 2] bcast_S16x2816_S16x128x2816_0_2 x (ix3 g t n) = x (ix2 g n) :=
  broadcastInDim_apply _ bcast_S16x2816_S16x128x2816_0_2 x (ix3 g t n) (ix2 g n) (fun a => match a with
    | ⟨0, _⟩ => by show g.val = if (16 : Nat) = 1 then 0 else g.val; rw [if_neg (by decide)]
    | ⟨1, _⟩ => by show n.val = if (2816 : Nat) = 1 then 0 else n.val; rw [if_neg (by decide)])

/-- The reshape `[16, 128, 2816] → [2048, 2816]`: row `k` is `(k / 128, k % 128)` (row-major positions agree). -/
theorem reshapeGroups_apply (y : S16x128x2816.Idx → α) (k : Fin 2048) (n : Fin 2816) :
    shapeCast S2048x2816 y shapeCasts_S16x128x2816_S2048x2816 (ix2 k n)
      = y (ix3 (⟨k.val / 128, by have := k.isLt; omega⟩ : Fin 16) (⟨k.val % 128, Nat.mod_lt _ (by decide)⟩ : Fin 128) n) :=
  shapeCast_apply y shapeCasts_S16x128x2816_S2048x2816 (ix2 k n) _
    (by rewrite [Shape.rowMajor_val_three, Shape.rowMajor_val_two]
        have hk : k.val < 2048 := k.isLt
        have hn : n.val < 2816 := n.isLt
        show (k.val / 128 * 128 + k.val % 128) * 2816 + n.val = k.val * 2816 + n.val
        omega)

end Layout

/-- Entry `a` of the shift vector is `4 · a`. -/
theorem shifts_apply (a : Fin 8) : shifts (F := F) (ix1 a) = IntOp.muli 4#32 (BitVec.ofNat 32 a.val) := by
  unfold shifts
  refine congrArg (fun w => IntOp.muli w (BitVec.ofNat 32 a.val)) ?_
  exact bcScalar_apply bcast_S_S8 _ (ix1 a)

theorem unpackRows_apply (Q : (⟨S256x2816, .i32⟩ : BufTy).Contents (Elt F)) (k : Fin 2048) (n : Fin 2816) :
    unpackRows (F := F) Q (ix2 k n)
      = FloatOps.sitofp .f32 (nibble (Q (ix2 (⟨k.val / 8, by have := k.isLt; omega⟩ : Fin 256) n)) (k.val % 8)) := by
  unfold unpackRows nibble
  refine congrArg (FloatOps.sitofp .f32) ?_
  refine (reshapeRows_apply _ k n).trans ?_
  refine congr (congrArg IntOp.andi (congr (congrArg (IntOp.shrsi .host) ?_) ?_)) ?_
  · exact (bcRows2_apply _ _ _ n).trans (bcRows1_apply Q _ _ n)
  · exact ((bcMid2_apply _ _ _ n).trans (bcMid1_apply _ _ _ _)).trans (shifts_apply _)
  · exact bcScalar_apply bcast_S_S256x8x2816 _ _

theorem unpackCols_apply (Z : (⟨S16x352, .i32⟩ : BufTy).Contents (Elt F)) (g : Fin 16) (n : Fin 2816) :
    unpackCols (F := F) Z (ix2 g n)
      = FloatOps.sitofp .f32 (IntOp.addi (nibble (Z (ix2 g (⟨n.val / 8, by have := n.isLt; omega⟩ : Fin 352))) (n.val % 8)) 1#32) := by
  unfold unpackCols nibble
  refine congrArg (FloatOps.sitofp .f32) ?_
  refine congr (congrArg IntOp.addi ?_) (bcScalar_apply bcast_S_S16x2816 _ _)
  refine (reshapeCols_apply _ g n).trans ?_
  refine congr (congrArg IntOp.andi (congr (congrArg (IntOp.shrsi .host) ?_) ?_)) ?_
  · exact (bcCols2_apply _ g _ _).trans (bcCols1_apply Z g _ _)
  · exact ((bcLast2_apply _ g _ _).trans (bcLast1_apply _ _ _ _)).trans (shifts_apply _)
  · exact bcScalar_apply bcast_S_S16x352x8 _ _

theorem repeatGroups_apply (Y : (⟨S16x2816, .f32⟩ : BufTy).Contents (Elt F)) (k : Fin 2048) (n : Fin 2816) :
    repeatGroups (F := F) Y (ix2 k n) = Y (ix2 (⟨k.val / 128, by have := k.isLt; omega⟩ : Fin 16) n) := by
  unfold repeatGroups
  exact (reshapeGroups_apply _ k n).trans (bcGroups_apply Y _ _ n)

/-- Entry `(k, n)` of the fused weight from the three words it depends on. -/
theorem kGU_apply (Q : (⟨S256x2816, .i32⟩ : BufTy).Contents (Elt F)) (Z : (⟨S16x352, .i32⟩ : BufTy).Contents (Elt F))
    (S : (⟨S16x2816, .f32⟩ : BufTy).Contents (Elt F)) (k : Fin 2048) (n : Fin 2816) :
    kGU (F := F) Q Z S (ix2 k n)
      = deqElt (Q (ix2 (⟨k.val / 8, by have := k.isLt; omega⟩ : Fin 256) n)) (k.val % 8)
          (Z (ix2 (⟨k.val / 128, by have := k.isLt; omega⟩ : Fin 16) (⟨n.val / 8, by have := n.isLt; omega⟩ : Fin 352))) (n.val % 8)
          (S (ix2 (⟨k.val / 128, by have := k.isLt; omega⟩ : Fin 16) n)) := by
  unfold kGU deqElt
  refine congr (congrArg FloatOps.mulf (congr (congrArg FloatOps.subf (unpackRows_apply Q k n)) ?_)) (repeatGroups_apply S k n)
  exact (repeatGroups_apply _ k n).trans (unpackCols_apply Z _ n)

end Cert.Moe.KChain

end
-- ==== Proof.RefDequant.lean ====
import proofs.«431011_j53042846105776_3_alg».proof.Proof.Gen.ReferenceIdeal.Read
import proofs.«431011_j53042846105776_3_alg».proof.Proof.Dequant

noncomputable section

open scoped BigOperators

namespace Cert.Moe.RefDequant

open Cert.ReferenceIdeal Cert.ReferenceIdeal.Gen Cert.ReferenceIdeal.Read Idealize.ShloMosaic Idealize.ShloMosaic.TcCoe Idealize.ShloMosaic.ValueIdx Cert.Moe

variable {F : FTy → Type} [FloatOps F]

/-! ## The gate weight, stage by stage -/

/-- The unpacked weight field: entry `(k, n)` is field `k % 8` of the packed word at `(k / 8, n)`. The reshape of
    `256 × 8 × 1408` to `2048 × 1408` reads row-major position `k · 1408 + n` at `(k / 8, k % 8, n)`. -/
theorem gate_w (x1 : (⟨S256x1408, .i32⟩ : BufTy).Contents (Elt F)) (k : Fin 2048) (n : Fin 1408) :
    val_main_v11 (F := F) x1 (ix2 k n)
      = FloatOps.sitofp .f32 (nibble (x1 (ix2 (⟨k.val / 8, by have := k.isLt; omega⟩ : Fin 256) n)) (k.val % 8)) := by
  rw [val_main_v11_apply, val_main_v10_apply, val_main_v9_apply, val_main_v8_apply, val_main_c_0_apply,
    val_main_v7_apply, val_main_v6_apply, val_main_v4_apply, val_main_v2_apply, val_main_v1_apply,
    val_main_c_apply, val_main_v0_apply, val_main_v5_apply, val_main_v3_apply]
  have hk := k.isLt
  have hn := n.isLt
  have e1 : idx_main_v3 (idx_main_v5 (idx_main_v10 (ix2 k n)))
      = ix2 (⟨k.val / 8, by omega⟩ : Fin 256) n :=
    funext fun a => Fin.ext (by
      match a with
      | ⟨0, _⟩ => show (k.val * 1408 + n.val) / 11264 = k.val / 8; omega
      | ⟨1, _⟩ => show (k.val * 1408 + n.val) % 1408 = n.val; omega)
  have e2 : (idx_main_v4 (idx_main_v6 (idx_main_v10 (ix2 k n))) 0).val = k.val % 8 := by
    show (k.val * 1408 + n.val) / 1408 % 8 = k.val % 8; omega
  rw [e1, e2]
  rfl

/-- The zero point plus one: entry `(g, n)` is field `n % 8` of the packed word at `(g, n / 8)`, plus one. The
    reshape of `16 × 176 × 8` to `16 × 1408` reads row-major position `g · 1408 + n` at `(g, n / 8, n % 8)`. -/
theorem gate_z (x2 : (⟨S16x176, .i32⟩ : BufTy).Contents (Elt F)) (g : Fin 16) (n : Fin 1408) :
    val_main_v25 (F := F) x2 (ix2 g n)
      = FloatOps.sitofp .f32 (IntOp.addi
          (nibble (x2 (ix2 g (⟨n.val / 8, by have := n.isLt; omega⟩ : Fin 176))) (n.val % 8)) 1#32) := by
  rw [val_main_v25_apply, val_main_v24_apply, val_main_v23_apply, val_main_c_3_apply, val_main_v22_apply, val_main_v21_apply,
    val_main_v20_apply, val_main_c_2_apply, val_main_v19_apply, val_main_v18_apply, val_main_v16_apply, val_main_v14_apply,
    val_main_v13_apply, val_main_c_1_apply, val_main_v12_apply, val_main_v17_apply, val_main_v15_apply]
  have hg := g.isLt
  have hn := n.isLt
  have e1 : idx_main_v15 (idx_main_v17 (idx_main_v22 (ix2 g n)))
      = ix2 g (⟨n.val / 8, by omega⟩ : Fin 176) :=
    funext fun a => Fin.ext (by
      match a with
      | ⟨0, _⟩ => show (g.val * 1408 + n.val) / 1408 = g.val; omega
      | ⟨1, _⟩ => show (g.val * 1408 + n.val) / 8 % 176 = n.val / 8; omega)
  have e2 : (idx_main_v16 (idx_main_v18 (idx_main_v22 (ix2 g n))) 0).val = n.val % 8 := by
    show (g.val * 1408 + n.val) % 8 = n.val % 8; omega
  rw [e1, e2]
  rfl

/-- The scale repeated over the 128 rows of a group: the reshape of `16 × 128 × 1408` to `2048 × 1408` reads
    row-major position `k · 1408 + n` at `(k / 128, k % 128, n)`, and the broadcast drops the middle coordinate. -/
theorem gate_s (x3 : (⟨S16x1408, .f32⟩ : BufTy).Contents (Elt F)) (k : Fin 2048) (n : Fin 1408) :
    val_main_v27 (F := F) x3 (ix2 k n)
      = x3 (ix2 (⟨k.val / 128, by have := k.isLt; omega⟩ : Fin 16) n) := by
  rw [val_main_v27_apply, val_main_v26_apply]
  have hk := k.isLt
  have hn := n.isLt
  have e1 : idx_main_v26 (idx_main_v27 (ix2 k n))
      = ix2 (⟨k.val / 128, by omega⟩ : Fin 16) n :=
    funext fun a => Fin.ext (by
      match a with
      | ⟨0, _⟩ => show (k.val * 1408 + n.val) / 180224 = k.val / 128; omega
      | ⟨1, _⟩ => show (k.val * 1408 + n.val) % 1408 = n.val; omega)
  rw [e1]

/-- The zero point repeated over the 128 rows of a group, the same way. -/
theorem gate_zr (x2 : (⟨S16x176, .i32⟩ : BufTy).Contents (Elt F)) (k : Fin 2048) (n : Fin 1408) :
    val_main_v29 (F := F) x2 (ix2 k n)
      = val_main_v25 (F := F) x2 (ix2 (⟨k.val / 128, by have := k.isLt; omega⟩ : Fin 16) n) := by
  rw [val_main_v29_apply, val_main_v28_apply]
  have hk := k.isLt
  have hn := n.isLt
  have e1 : idx_main_v28 (idx_main_v29 (ix2 k n))
      = ix2 (⟨k.val / 128, by omega⟩ : Fin 16) n :=
    funext fun a => Fin.ext (by
      match a with
      | ⟨0, _⟩ => show (k.val * 1408 + n.val) / 180224 = k.val / 128; omega
      | ⟨1, _⟩ => show (k.val * 1408 + n.val) % 1408 = n.val; omega)
  rw [e1]

/-! ## The up weight, stage by stage (the same chain over the next three arguments) -/

/-- The unpacked weight field: entry `(k, n)` is field `k % 8` of the packed word at `(k / 8, n)`. The reshape of
    `256 × 8 × 1408` to `2048 × 1408` reads row-major position `k · 1408 + n` at `(k / 8, k % 8, n)`. -/
theorem up_w (x4 : (⟨S256x1408, .i32⟩ : BufTy).Contents (Elt F)) (k : Fin 2048) (n : Fin 1408) :
    val_main_v43 (F := F) x4 (ix2 k n)
      = FloatOps.sitofp .f32 (nibble (x4 (ix2 (⟨k.val / 8, by have := k.isLt; omega⟩ : Fin 256) n)) (k.val % 8)) := by
  rw [val_main_v43_apply, val_main_v42_apply, val_main_v41_apply, val_main_v40_apply, val_main_c_5_apply,
    val_main_v39_apply, val_main_v38_apply, val_main_v36_apply, val_main_v34_apply, val_main_v33_apply,
    val_main_c_4_apply, val_main_v32_apply, val_main_v37_apply, val_main_v35_apply]
  have hk := k.isLt
  have hn := n.isLt
  have e1 : idx_main_v35 (idx_main_v37 (idx_main_v42 (ix2 k n)))
      = ix2 (⟨k.val / 8, by omega⟩ : Fin 256) n :=
    funext fun a => Fin.ext (by
      match a with
      | ⟨0, _⟩ => show (k.val * 1408 + n.val) / 11264 = k.val / 8; omega
      | ⟨1, _⟩ => show (k.val * 1408 + n.val) % 1408 = n.val; omega)
  have e2 : (idx_main_v36 (idx_main_v38 (idx_main_v42 (ix2 k n))) 0).val = k.val % 8 := by
    show (k.val * 1408 + n.val) / 1408 % 8 = k.val % 8; omega
  rw [e1, e2]
  rfl

/-- The zero point plus one: entry `(g, n)` is field `n % 8` of the packed word at `(g, n / 8)`, plus one. The
    reshape of `16 × 176 × 8` to `16 × 1408` reads row-major position `g · 1408 + n` at `(g, n / 8, n % 8)`. -/
theorem up_z (x5 : (⟨S16x176, .i32⟩ : BufTy).Contents (Elt F)) (g : Fin 16) (n : Fin 1408) :
    val_main_v57 (F := F) x5 (ix2 g n)
      = FloatOps.sitofp .f32 (IntOp.addi
          (nibble (x5 (ix2 g (⟨n.val / 8, by have := n.isLt; omega⟩ : Fin 176))) (n.val % 8)) 1#32) := by
  rw [val_main_v57_apply, val_main_v56_apply, val_main_v55_apply, val_main_c_8_apply, val_main_v54_apply, val_main_v53_apply,
    val_main_v52_apply, val_main_c_7_apply, val_main_v51_apply, val_main_v50_apply, val_main_v48_apply, val_main_v46_apply,
    val_main_v45_apply, val_main_c_6_apply, val_main_v44_apply, val_main_v49_apply, val_main_v47_apply]
  have hg := g.isLt
  have hn := n.isLt
  have e1 : idx_main_v47 (idx_main_v49 (idx_main_v54 (ix2 g n)))
      = ix2 g (⟨n.val / 8, by omega⟩ : Fin 176) :=
    funext fun a => Fin.ext (by
      match a with
      | ⟨0, _⟩ => show (g.val * 1408 + n.val) / 1408 = g.val; omega
      | ⟨1, _⟩ => show (g.val * 1408 + n.val) / 8 % 176 = n.val / 8; omega)
  have e2 : (idx_main_v48 (idx_main_v50 (idx_main_v54 (ix2 g n))) 0).val = n.val % 8 := by
    show (g.val * 1408 + n.val) % 8 = n.val % 8; omega
  rw [e1, e2]
  rfl

/-- The scale repeated over the 128 rows of a group: the reshape of `16 × 128 × 1408` to `2048 × 1408` reads
    row-major position `k · 1408 + n` at `(k / 128, k % 128, n)`, and the broadcast drops the middle coordinate. -/
theorem up_s (x6 : (⟨S16x1408, .f32⟩ : BufTy).Contents (Elt F)) (k : Fin 2048) (n : Fin 1408) :
    val_main_v59 (F := F) x6 (ix2 k n)
      = x6 (ix2 (⟨k.val / 128, by have := k.isLt; omega⟩ : Fin 16) n) := by
  rw [val_main_v59_apply, val_main_v58_apply]
  have hk := k.isLt
  have hn := n.isLt
  have e1 : idx_main_v58 (idx_main_v59 (ix2 k n))
      = ix2 (⟨k.val / 128, by omega⟩ : Fin 16) n :=
    funext fun a => Fin.ext (by
      match a with
      | ⟨0, _⟩ => show (k.val * 1408 + n.val) / 180224 = k.val / 128; omega
      | ⟨1, _⟩ => show (k.val * 1408 + n.val) % 1408 = n.val; omega)
  rw [e1]

/-- The zero point repeated over the 128 rows of a group, the same way. -/
theorem up_zr (x5 : (⟨S16x176, .i32⟩ : BufTy).Contents (Elt F)) (k : Fin 2048) (n : Fin 1408) :
    val_main_v61 (F := F) x5 (ix2 k n)
      = val_main_v57 (F := F) x5 (ix2 (⟨k.val / 128, by have := k.isLt; omega⟩ : Fin 16) n) := by
  rw [val_main_v61_apply, val_main_v60_apply]
  have hk := k.isLt
  have hn := n.isLt
  have e1 : idx_main_v60 (idx_main_v61 (ix2 k n))
      = ix2 (⟨k.val / 128, by omega⟩ : Fin 16) n :=
    funext fun a => Fin.ext (by
      match a with
      | ⟨0, _⟩ => show (k.val * 1408 + n.val) / 180224 = k.val / 128; omega
      | ⟨1, _⟩ => show (k.val * 1408 + n.val) % 1408 = n.val; omega)
  rw [e1]

/-! ## The two dequantized weights -/

/-- Entry `(k, n)` of the reference's dequantized gate weight from the three words it depends on. -/
theorem ref_gate_apply (x1 : (⟨S256x1408, .i32⟩ : BufTy).Contents (Elt F)) (x2 : (⟨S16x176, .i32⟩ : BufTy).Contents (Elt F))
    (x3 : (⟨S16x1408, .f32⟩ : BufTy).Contents (Elt F)) (k : Fin 2048) (n : Fin 1408) :
    val_main_v31 (F := F) x1 x2 x3 (ix2 k n)
      = deqElt (x1 (ix2 (⟨k.val / 8, by have := k.isLt; omega⟩ : Fin 256) n)) (k.val % 8)
          (x2 (ix2 (⟨k.val / 128, by have := k.isLt; omega⟩ : Fin 16) (⟨n.val / 8, by have := n.isLt; omega⟩ : Fin 176))) (n.val % 8)
          (x3 (ix2 (⟨k.val / 128, by have := k.isLt; omega⟩ : Fin 16) n)) := by
  rw [val_main_v31_apply, val_main_v30_apply, gate_w, gate_zr, gate_z, gate_s]
  rfl

/-- The same for the up weight. -/
theorem ref_up_apply (x4 : (⟨S256x1408, .i32⟩ : BufTy).Contents (Elt F)) (x5 : (⟨S16x176, .i32⟩ : BufTy).Contents (Elt F))
    (x6 : (⟨S16x1408, .f32⟩ : BufTy).Contents (Elt F)) (k : Fin 2048) (n : Fin 1408) :
    val_main_v63 (F := F) x4 x5 x6 (ix2 k n)
      = deqElt (x4 (ix2 (⟨k.val / 8, by have := k.isLt; omega⟩ : Fin 256) n)) (k.val % 8)
          (x5 (ix2 (⟨k.val / 128, by have := k.isLt; omega⟩ : Fin 16) (⟨n.val / 8, by have := n.isLt; omega⟩ : Fin 176))) (n.val % 8)
          (x6 (ix2 (⟨k.val / 128, by have := k.isLt; omega⟩ : Fin 16) n)) := by
  rw [val_main_v63_apply, val_main_v62_apply, up_w, up_zr, up_z, up_s]
  rfl

end Cert.Moe.RefDequant

end
-- ==== Proof.KHost.lean ====
import proofs.«431011_j53042846105776_3_alg».proof.Proof.Gen.KernelIdeal.Frame
import proofs.«431011_j53042846105776_3_alg».proof.Proof.Gen.ReferenceIdeal.Read
import proofs.«431011_j53042846105776_3_alg».proof.Proof.Spec
import proofs.«431011_j53042846105776_3_alg».proof.Proof.Dequant
import proofs.«431011_j53042846105776_3_alg».proof.Proof.KChain
import proofs.«431011_j53042846105776_3_alg».proof.Proof.RefDequant
import Idealize.ShloMosaic.Lib.StableHlo.Run
import Idealize.ShloMosaic.Lib.Pipeline.Value

noncomputable section

namespace Cert.Moe.KHost

open Cert.KernelIdeal Cert.KernelIdeal.Gen Idealize.ShloMosaic Idealize.ShloMosaic.TcCoe Idealize.SL.Sem
open Idealize.ShloMosaic.ValueIdx Cert.Moe

/-! The weights the kernel's pallas_call is given, against the weights the reference dequantizes.

    The down weight is computed by the same operations in both programs. The fused gate|up weight is the same
    dequantization applied to the packed words CONCATENATED along the output axis: entry `(k, n)` reads the weight
    word at `(k / 8, n)`, the zero-point word at `(k / 128, n / 8)` and the scale at `(k / 128, n)`, and each of the
    three concatenations sends a left column to the gate's array and a right column `1408 + n` (word column
    `176 + n / 8`, same field `n % 8`) to the up's array at column `n`. -/

section Concat
variable {α : Type}

/-- A left column of two `[256, 1408]` arrays side by side is the first array's column. -/
theorem catQ_left (a b : S256x1408.Idx → α) (r : Fin 256) (n : Fin 1408) :
    concatenate S256x2816 1 [⟨S256x1408, a⟩, ⟨S256x1408, b⟩] concatenates_S256x1408_S256x1408_S256x2816_d1 (ix2 r (gateCol n)) = a (ix2 r n) :=
  concatenate_pair_apply_left 1 a b _ (ix2 r (gateCol n)) rfl (ix2 r n) (fun d => by match d with | ⟨0, _⟩ => rfl | ⟨1, _⟩ => rfl)

/-- A right column `1408 + n` is the second array's column `n`. -/
theorem catQ_right (a b : S256x1408.Idx → α) (r : Fin 256) (n : Fin 1408) :
    concatenate S256x2816 1 [⟨S256x1408, a⟩, ⟨S256x1408, b⟩] concatenates_S256x1408_S256x1408_S256x2816_d1 (ix2 r (upCol n)) = b (ix2 r n) :=
  concatenate_pair_apply_right 1 a b _ (ix2 r (upCol n)) rfl rfl (ix2 r n)
    (fun d hd => by match d with | ⟨0, _⟩ => rfl | ⟨1, _⟩ => exact absurd rfl hd)
    (by show n.val + 1408 = 1408 + n.val; omega)

theorem catS_left (a b : S16x1408.Idx → α) (g : Fin 16) (n : Fin 1408) :
    concatenate S16x2816 1 [⟨S16x1408, a⟩, ⟨S16x1408, b⟩] concatenates_S16x1408_S16x1408_S16x2816_d1 (ix2 g (gateCol n)) = a (ix2 g n) :=
  concatenate_pair_apply_left 1 a b _ (ix2 g (gateCol n)) rfl (ix2 g n) (fun d => by match d with | ⟨0, _⟩ => rfl | ⟨1, _⟩ => rfl)

theorem catS_right (a b : S16x1408.Idx → α) (g : Fin 16) (n : Fin 1408) :
    concatenate S16x2816 1 [⟨S16x1408, a⟩, ⟨S16x1408, b⟩] concatenates_S16x1408_S16x1408_S16x2816_d1 (ix2 g (upCol n)) = b (ix2 g n) :=
  concatenate_pair_apply_right 1 a b _ (ix2 g (upCol n)) rfl rfl (ix2 g n)
    (fun d hd => by match d with | ⟨0, _⟩ => rfl | ⟨1, _⟩ => exact absurd rfl hd)
    (by show n.val + 1408 = 1408 + n.val; omega)

/-- Packed zero-point words: `[16, 176]` twice side by side; word column `w < 176` is the first array's. -/
theorem catZ_left (a b : S16x176.Idx → α) (g : Fin 16) (w : Fin 176) :
    concatenate S16x352 1 [⟨S16x176, a⟩, ⟨S16x176, b⟩] concatenates_S16x176_S16x176_S16x352_d1
      (ix2 g (⟨w.val, by have := w.isLt; omega⟩ : Fin 352)) = a (ix2 g w) :=
  concatenate_pair_apply_left (t := S16x352) 1 a b _ (ix2 g (⟨w.val, by have := w.isLt; omega⟩ : Fin 352)) rfl (ix2 g w)
    (fun d => by match d with | ⟨0, _⟩ => rfl | ⟨1, _⟩ => rfl)

theorem catZ_right (a b : S16x176.Idx → α) (g : Fin 16) (w : Fin 176) :
    concatenate S16x352 1 [⟨S16x176, a⟩, ⟨S16x176, b⟩] concatenates_S16x176_S16x176_S16x352_d1
      (ix2 g (⟨176 + w.val, by have := w.isLt; omega⟩ : Fin 352)) = b (ix2 g w) :=
  concatenate_pair_apply_right (t := S16x352) 1 a b _ (ix2 g (⟨176 + w.val, by have := w.isLt; omega⟩ : Fin 352)) rfl rfl (ix2 g w)
    (fun d hd => by match d with | ⟨0, _⟩ => rfl | ⟨1, _⟩ => exact absurd rfl hd)
    (by show w.val + 176 = 176 + w.val; omega)

end Concat

variable (m : (ℓ : Loc nD τ sig) → Buf (Elt Ideal) ℓ)

/-- The gate weight as the reference dequantizes it, of the kernel program's argument arrays. -/
abbrev Wg (c : Dev nD) : Fin 2048 → Fin 1408 → EReal := fun k n =>
  Cert.ReferenceIdeal.Read.val_main_v31 (F := Ideal) (m ((c : Thread nD τ).loc main_arg1)) (m ((c : Thread nD τ).loc main_arg2)) (m ((c : Thread nD τ).loc main_arg3)) (ix2 k n)
/-- The up weight, likewise. -/
abbrev Wu (c : Dev nD) : Fin 2048 → Fin 1408 → EReal := fun k n =>
  Cert.ReferenceIdeal.Read.val_main_v63 (F := Ideal) (m ((c : Thread nD τ).loc main_arg4)) (m ((c : Thread nD τ).loc main_arg5)) (m ((c : Thread nD τ).loc main_arg6)) (ix2 k n)
/-- The down weight, likewise. -/
abbrev Wd (c : Dev nD) : Fin 1408 → Fin 2048 → EReal := fun n j =>
  Cert.ReferenceIdeal.Read.val_main_v95 (F := Ideal) (m ((c : Thread nD τ).loc main_arg7)) (m ((c : Thread nD τ).loc main_arg8)) (m ((c : Thread nD τ).loc main_arg9)) (ix2 n j)
/-- The token rows. -/
abbrev X (c : Dev nD) : Fin 16384 → Fin 2048 → EReal := fun t k => m ((c : Thread nD τ).loc main_arg0) (ix2 t k)

set_option maxHeartbeats 8000000 in
/-- The down weight the region finds is the reference's dequantized down weight: the two programs apply the same
    operations to the same three arguments (the cast to bf16 is the identity on the extended reals). -/
theorem V_wd_raw (c : Dev nD) :
    (V m c main_v68 : S1408x2048.Idx → EReal)
      = Cert.ReferenceIdeal.Read.val_main_v95 (F := Ideal) (m ((c : Thread nD τ).loc main_arg7)) (m ((c : Thread nD τ).loc main_arg8)) (m ((c : Thread nD τ).loc main_arg9)) := by
  dsimp only [V, hostOps0]; after_results_simp; rfl

set_option maxHeartbeats 8000000 in
/-- The fused weight the region finds is the dequantization of the concatenated packed words. -/
theorem V_wgu_raw (c : Dev nD) :
    (V m c main_v35 : S2048x2816.Idx → EReal)
      = KChain.kGU (F := Ideal)
          (concatenate S256x2816 1 [⟨S256x1408, m ((c : Thread nD τ).loc main_arg1)⟩, ⟨S256x1408, m ((c : Thread nD τ).loc main_arg4)⟩] concatenates_S256x1408_S256x1408_S256x2816_d1)
          (concatenate S16x352 1 [⟨S16x176, m ((c : Thread nD τ).loc main_arg2)⟩, ⟨S16x176, m ((c : Thread nD τ).loc main_arg5)⟩] concatenates_S16x176_S16x176_S16x352_d1)
          (concatenate S16x2816 1 [⟨S16x1408, m ((c : Thread nD τ).loc main_arg3)⟩, ⟨S16x1408, m ((c : Thread nD τ).loc main_arg6)⟩] concatenates_S16x1408_S16x1408_S16x2816_d1) := by
  dsimp only [V, hostOps0]; after_results_simp; rfl

theorem V_wd (c : Dev nD) (n : Fin 1408) (j : Fin 2048) : V m c main_v68 (ix2 n j) = Wd m c n j :=
  congrFun (V_wd_raw m c) (ix2 n j)

/-- A gate column of the fused weight is the reference's gate weight. -/
theorem V_wgu_gate (c : Dev nD) (k : Fin 2048) (n : Fin 1408) : V m c main_v35 (ix2 k (gateCol n)) = Wg m c k n := by
  refine (congrFun (V_wgu_raw m c) (ix2 k (gateCol n))).trans ?_
  refine (KChain.kGU_apply _ _ _ k (gateCol n)).trans ?_
  refine Eq.trans ?_ (Cert.Moe.RefDequant.ref_gate_apply (F := Ideal) (m ((c : Thread nD τ).loc main_arg1)) (m ((c : Thread nD τ).loc main_arg2)) (m ((c : Thread nD τ).loc main_arg3)) k n).symm
  have hw : (⟨(gateCol n).val / 8, by have := (gateCol n).isLt; omega⟩ : Fin 352)
      = ⟨(⟨n.val / 8, by have := n.isLt; omega⟩ : Fin 176).val, by have := n.isLt; omega⟩ := Fin.ext rfl
  rw [catQ_left, catS_left, hw, catZ_left]

/-- An up column `1408 + n` of the fused weight is the reference's up weight at column `n`. -/
theorem V_wgu_up (c : Dev nD) (k : Fin 2048) (n : Fin 1408) : V m c main_v35 (ix2 k (upCol n)) = Wu m c k n := by
  refine (congrFun (V_wgu_raw m c) (ix2 k (upCol n))).trans ?_
  refine (KChain.kGU_apply _ _ _ k (upCol n)).trans ?_
  refine Eq.trans ?_ (Cert.Moe.RefDequant.ref_up_apply (F := Ideal) (m ((c : Thread nD τ).loc main_arg4)) (m ((c : Thread nD τ).loc main_arg5)) (m ((c : Thread nD τ).loc main_arg6)) k n).symm
  have hw : (⟨(upCol n).val / 8, by have := (upCol n).isLt; omega⟩ : Fin 352)
      = ⟨176 + (⟨n.val / 8, by have := n.isLt; omega⟩ : Fin 176).val, by have := n.isLt; omega⟩ :=
    Fin.ext (by show (1408 + n.val) / 8 = 176 + n.val / 8; omega)
  have hf : (upCol n).val % 8 = n.val % 8 := by show (1408 + n.val) % 8 = n.val % 8; omega
  rw [catQ_right, catS_right, hw, catZ_right, hf]

end Cert.Moe.KHost

end
-- ==== Proof.KTrip.lean ====
import proofs.«431011_j53042846105776_3_alg».proof.Proof.Gen.KernelIdeal.Frame
import Idealize.ShloMosaic.Lib.Pipeline.Value
import Idealize.ShloMosaic.Lib.ValueIdx

noncomputable section

open scoped BigOperators

namespace Cert.Moe.KTrip

open Cert.KernelIdeal Cert.KernelIdeal.Gen Idealize.ShloMosaic Idealize.ShloMosaic.TcCoe Idealize.ShloMosaic.ValueIdx Idealize.SL.Sem

/-! The body stores the output block in two halves: trip `h` of its loop loads rows `256·h … 256·h + 255` of the
    input block, computes their 256 output rows, and stores them at the same rows of the output block. Read back
    entry by entry, the block is one function of the input blocks: row `p` comes from trip `p / 256`. -/

/-- Rows `256 · h … 256 · h + 255` of a 512-row block. -/
def chunk (x0 : Vec Ideal S512x2048 .f32) (h : Fin 2) : Vec Ideal S256x2048 .f32 :=
  fun y => x0 (ix2 (⟨256 * h.val + (y 0).val, by have := h.isLt; have := idx2_lt0 y; omega⟩ : Fin 512) (⟨(y 1).val, idx2_lt1 y⟩ : Fin 2048))

/-- The loop makes two trips. -/
theorem trip_lt (k : Fin k0_t1_loop.trips) : k.val < 2 := Nat.lt_of_lt_of_le k.isLt k0_t1_abs.2.1

/-- The output block as one function of the input blocks: row `p` is row `p % 256` of the payload of chunk `p / 256`. -/
def blockFn (x0 : Vec Ideal S512x2048 .f32) (x1 : Vec Ideal S2048x2816 .bf16) (x2 : Vec Ideal S1408x2048 .bf16) :
    S512x2048.Idx → Ideal .f32 :=
  fun y => k0_pay1 (F := Ideal) x1 x2 (chunk x0 (⟨(y 0).val / 256, by have := idx2_lt0 y; omega⟩ : Fin 2))
    (ix2 (⟨(y 0).val % 256, by omega⟩ : Fin 256) (⟨(y 1).val, idx2_lt1 y⟩ : Fin 2048))

/-- ONE TRIP'S PIECE (the trip's definition opened here, once): a store, at the trip's rows, of the payload of the
    load of the input block at the same rows. -/
theorem tripL_eq (𝒱 : Variants) (c : Dev nD) (bd : Option 𝒱.V) (i : grid0.Coords) (arg1 : Memref sig .tc .vmem S512x2048 .f32) (harg1 : arg1.IsWhole)
    (arg2 : Memref sig .tc .vmem S2048x2816 .bf16) (harg2 : arg2.IsWhole) (arg3 : Memref sig .tc .vmem S1408x2048 .bf16) (harg3 : arg3.IsWhole)
    (arg4 : Memref sig .tc .vmem S512x2048 .f32) (harg4 : arg4.IsWhole)
    (v0 : Vec Ideal S2048x2816 .bf16) (v2 : Vec Ideal S1408x2048 .bf16) (X_arg1 : BufTy.Contents (Elt Ideal) arg1.view.ty)
    (k : Fin k0_t1_loop.trips) :
    tripL_k0_t1 (F := Ideal) 𝒱 c bd i arg1 harg1 arg2 harg2 arg3 harg3 arg4 harg4 v0 v2 X_arg1 k
      = [⟨Rect.unit (s := S512x2048) (k0_off1 k) S256x2048.size (k0_off1_inb k),
          k0_pay1 (F := Ideal) v0 v2 (View.readAt (Elt Ideal) arg1.view (Rect.unit (s := S512x2048) (k0_off1 k) S256x2048.size (k0_off1_inb k)).toLoadRect X_arg1)⟩] := by
  unfold tripL_k0_t1 trip_k0_t1
  rfl

/-- Every piece of the trips before `n` is some trip's piece. -/
theorem mem_pb (𝒱 : Variants) (c : Dev nD) (bd : Option 𝒱.V) (i : grid0.Coords) (arg1 : Memref sig .tc .vmem S512x2048 .f32) (harg1 : arg1.IsWhole)
    (arg2 : Memref sig .tc .vmem S2048x2816 .bf16) (harg2 : arg2.IsWhole) (arg3 : Memref sig .tc .vmem S1408x2048 .bf16) (harg3 : arg3.IsWhole)
    (arg4 : Memref sig .tc .vmem S512x2048 .f32) (harg4 : arg4.IsWhole)
    (v0 : Vec Ideal S2048x2816 .bf16) (v2 : Vec Ideal S1408x2048 .bf16) (X_arg1 : BufTy.Contents (Elt Ideal) arg1.view.ty) :
    ∀ (n : Nat) (p : View.Piece (Elt Ideal) S512x2048 .f32),
      p ∈ pb_k0_t1 (F := Ideal) 𝒱 c bd i arg1 harg1 arg2 harg2 arg3 harg3 arg4 harg4 v0 v2 X_arg1 n →
      ∃ k : Fin k0_t1_loop.trips, p ∈ tripL_k0_t1 (F := Ideal) 𝒱 c bd i arg1 harg1 arg2 harg2 arg3 harg3 arg4 harg4 v0 v2 X_arg1 k
  | 0, p, hp => by rw [pb_k0_t1.eq_1] at hp; exact absurd hp List.not_mem_nil
  | n + 1, p, hp => by
    rw [pb_k0_t1.eq_2] at hp
    unfold pb_k0_t1Step at hp
    by_cases h : n < k0_t1_loop.trips
    · rw [dif_pos h] at hp
      rcases List.mem_append.mp hp with hp | hp
      · exact ⟨⟨n, h⟩, hp⟩
      · exact mem_pb 𝒱 c bd i arg1 harg1 arg2 harg2 arg3 harg3 arg4 harg4 v0 v2 X_arg1 n p hp
    · rw [dif_neg h] at hp
      exact mem_pb 𝒱 c bd i arg1 harg1 arg2 harg2 arg3 harg3 arg4 harg4 v0 v2 X_arg1 n p hp

/-- A load of a whole staging buffer at its contents reads the contents. -/
theorem readAt_whole {S : Shape} {e : EltTy} (a : Memref sig .tc .vmem S e) (ha : a.IsWhole) (x : S.Idx → Elt Ideal e)
    (off : Fin S.rank → Nat) (h : off = fun _ => 0) (inb : ∀ b, off b + S.size b ≤ S.size b) :
    View.readAt (Elt Ideal) a.view (Rect.unit off S.size inb).toLoadRect (ha.unread x) = x := by
  rw [View.readAt_eq_ld, ha.read_unread, View.ld_unit_zero h]

/-- The load of trip `k` reads chunk `k` of the input block. -/
theorem readAt_chunk (arg1 : Memref sig .tc .vmem S512x2048 .f32) (harg1 : arg1.IsWhole) (x0 : Vec Ideal S512x2048 .f32)
    (k : Fin k0_t1_loop.trips) :
    View.readAt (Elt Ideal) arg1.view (Rect.unit (s := S512x2048) (k0_off1 k) S256x2048.size (k0_off1_inb k)).toLoadRect (harg1.unread x0)
      = chunk x0 ⟨k.val, trip_lt k⟩ := by
  rw [View.readAt_eq_ld, harg1.read_unread]
  funext y
  show x0 _ = x0 _
  refine congrArg x0 (funext fun a => Fin.ext ?_)
  have e0 : k0_off1 k 0 = 256 * k.val := by rw [k0_off1_eq k]; rfl
  have e1 : k0_off1 k 1 = 0 := by rw [k0_off1_eq k]; rfl
  match a with
  | ⟨0, _⟩ => show k0_off1 k 0 + 1 * (y 0).val = 256 * k.val + (y 0).val; omega
  | ⟨1, _⟩ => show k0_off1 k 1 + 1 * (y 1).val = (y 1).val; omega

/-- What the body leaves in the output block, entry by entry: row `p` lies in chunk `p / 256`, whose trip stored the
    payload of that chunk of the input block. -/
theorem out_apply (c : Dev nD) (i : grid0.Coords) (arg1 : Memref sig .tc .vmem S512x2048 .f32) (harg1 : arg1.IsWhole)
    (arg2 : Memref sig .tc .vmem S2048x2816 .bf16) (harg2 : arg2.IsWhole) (arg3 : Memref sig .tc .vmem S1408x2048 .bf16) (harg3 : arg3.IsWhole)
    (arg4 : Memref sig .tc .vmem S512x2048 .f32) (harg4 : arg4.IsWhole)
    (x0 : Vec Ideal S512x2048 .f32) (x1 : Vec Ideal S2048x2816 .bf16) (x2 : Vec Ideal S1408x2048 .bf16) (p : Fin 512) (q : Fin 2048) :
    out0_A_3 (F := Ideal) c i arg1 harg1 arg2 harg2 arg3 harg3 arg4 harg4 x0 x1 x2 (ix2 p q)
      = k0_pay1 (F := Ideal) x1 x2 (chunk x0 (⟨p.val / 256, by have := p.isLt; omega⟩ : Fin 2))
          (ix2 (⟨p.val % 256, by omega⟩ : Fin 256) q) := by
  unfold out0_A_3
  rw [View.read_writes_eq_canon _ _ _ (cover0_A_3 c i arg1 harg1 arg2 harg2 arg3 harg3 arg4 harg4 x0 x1 x2)]
  refine (View.canon_apply_of_pieces (blockFn x0 x1 x2) _ ?_ (ix2 p q) (cover0_A_3 c i arg1 harg1 arg2 harg2 arg3 harg3 arg4 harg4 x0 x1 x2 (ix2 p q))).trans rfl
  intro pc hpc
  have hL : (kernelRun0_A (F := Ideal) c i arg1 harg1 arg2 harg2 arg3 harg3 arg4 harg4 x0 x1 x2).1
      = pb_k0_t1 (F := Ideal) Variants.none c none i arg1 harg1 arg2 harg2 arg3 harg3 arg4 harg4
          (View.readAt (Elt Ideal) arg2.view (Rect.unit (s := S2048x2816) ![0, 0] S2048x2816.size inb_S2048x2816_S2048x2816_0_0).toLoadRect (harg2.unread x1))
          (View.readAt (Elt Ideal) arg3.view (Rect.unit (s := S1408x2048) ![0, 0] S1408x2048.size inb_S1408x2048_S1408x2048_0_0).toLoadRect (harg3.unread x2))
          (harg1.unread x0) k0_t1_loop.trips := by
    unfold kernelRun0_A; rfl
  rw [hL, readAt_whole arg2 harg2 x1 _ (by funext a; match a with | ⟨0, _⟩ => rfl | ⟨1, _⟩ => rfl),
    readAt_whole arg3 harg3 x2 _ (by funext a; match a with | ⟨0, _⟩ => rfl | ⟨1, _⟩ => rfl)] at hpc
  obtain ⟨k, hk⟩ := mem_pb Variants.none c none i arg1 harg1 arg2 harg2 arg3 harg3 arg4 harg4 x1 x2 (harg1.unread x0) _ pc hpc
  rw [tripL_eq, List.mem_singleton] at hk
  subst hk
  intro y
  show k0_pay1 (F := Ideal) x1 x2 _ y = blockFn x0 x1 x2 _
  rw [readAt_chunk arg1 harg1 x0 k]
  have hk2 := trip_lt k
  have e0 : k0_off1 k 0 = 256 * k.val := by rw [k0_off1_eq k]; rfl
  have e1 : k0_off1 k 1 = 0 := by rw [k0_off1_eq k]; rfl
  have h0 : ((Rect.unit (s := S512x2048) (k0_off1 k) S256x2048.size (k0_off1_inb k)).emb y 0).val = 256 * k.val + (y 0).val := by
    show k0_off1 k 0 + 1 * (y 0).val = _; omega
  have h1 : ((Rect.unit (s := S512x2048) (k0_off1 k) S256x2048.size (k0_off1_inb k)).emb y 1).val = (y 1).val := by
    show k0_off1 k 1 + 1 * (y 1).val = _; omega
  have hy0 : (y 0).val < 256 := (y 0).isLt
  unfold blockFn
  have ec : (⟨((Rect.unit (s := S512x2048) (k0_off1 k) S256x2048.size (k0_off1_inb k)).emb y 0).val / 256, by rw [h0]; omega⟩ : Fin 2) = ⟨k.val, hk2⟩ :=
    Fin.ext (by show _ / 256 = k.val; rw [h0]; omega)
  rw [ec]
  refine congrArg (k0_pay1 (F := Ideal) x1 x2 (chunk x0 ⟨k.val, hk2⟩)) (funext fun a => Fin.ext ?_)
  match a with
  | ⟨0, _⟩ => show (y 0).val = _ % 256; rw [h0]; omega
  | ⟨1, _⟩ => show (y 1).val = _; rw [h1]

end Cert.Moe.KTrip

end
-- ==== Proof.KPayload.lean ====
import proofs.«431011_j53042846105776_3_alg».proof.Proof.Gen.KernelIdeal.Skeleton
import proofs.«431011_j53042846105776_3_alg».proof.Proof.Spec
import Idealize.ShloMosaic.PureOps.Ideal.Laws
import Idealize.ShloMosaic.Lib.Pipeline.Value
import Idealize.ShloMosaic.Lib.ValueIdx

noncomputable section

open scoped BigOperators

namespace Cert.Moe.KPayload

open Cert.KernelIdeal Cert.KernelIdeal.Gen Idealize.ShloMosaic Idealize.ShloMosaic.TcCoe Idealize.ShloMosaic.ValueIdx Cert.Moe

/-! ## The two contractions at an index

A product into a zero accumulator, read at `(r, n)`, is the sum over the one contracted axis of the left operand at
`(r, k)` times the right operand at `(k, n)`. The four axis lemmas say which coordinate of an operand's index comes
from the output index and which from the contraction index. -/

theorem lhs_mm1_0 (i : S256x2816.Idx) (q : dot_S256x2048_S2048x2816_S256x2816_1_0_0_1_n_n.contr.Idx) :
    (dot_S256x2048_S2048x2816_S256x2816_1_0_0_1_n_n.lhsIdx i q 0).val = (i 0).val := by
  unfold DotDims.lhsIdx
  rw [dif_neg (show ¬(0 : Fin S256x2048.rank) ∈ dot_S256x2048_S2048x2816_S256x2816_1_0_0_1_n_n.lhsBatch by decide), dif_pos (show (0 : Fin S256x2048.rank) ∈ dot_S256x2048_S2048x2816_S256x2816_1_0_0_1_n_n.lhsNonContracting by decide)]
  rfl
theorem lhs_mm1_1 (i : S256x2816.Idx) (q : dot_S256x2048_S2048x2816_S256x2816_1_0_0_1_n_n.contr.Idx) :
    (dot_S256x2048_S2048x2816_S256x2816_1_0_0_1_n_n.lhsIdx i q 1).val = (q ⟨0, by decide⟩).val :=
  dot_S256x2048_S2048x2816_S256x2816_1_0_0_1_n_n.lhsIdx_val_of_single rfl i q
theorem rhs_mm1_0 (i : S256x2816.Idx) (q : dot_S256x2048_S2048x2816_S256x2816_1_0_0_1_n_n.contr.Idx) :
    (dot_S256x2048_S2048x2816_S256x2816_1_0_0_1_n_n.rhsIdx i q 0).val = (q ⟨0, by decide⟩).val :=
  dot_S256x2048_S2048x2816_S256x2816_1_0_0_1_n_n.rhsIdx_val_of_single rfl i q
theorem rhs_mm1_1 (i : S256x2816.Idx) (q : dot_S256x2048_S2048x2816_S256x2816_1_0_0_1_n_n.contr.Idx) :
    (dot_S256x2048_S2048x2816_S256x2816_1_0_0_1_n_n.rhsIdx i q 1).val = (i 1).val := by
  unfold DotDims.rhsIdx
  rw [dif_neg (show ¬(1 : Fin S2048x2816.rank) ∈ dot_S256x2048_S2048x2816_S256x2816_1_0_0_1_n_n.rhsBatch by decide), dif_pos (show (1 : Fin S2048x2816.rank) ∈ dot_S256x2048_S2048x2816_S256x2816_1_0_0_1_n_n.rhsNonContracting by decide)]
  rfl

/-- The first product, `256 × 2048` by `2048 × 2816`, at `(r, n)`: the sum over `k < 2048`. -/
theorem mm1_apply (a : FVec Ideal S256x2048 .bf16) (b : FVec Ideal S2048x2816 .bf16) (r : Fin 256) (n : Fin 2816) :
    matmul dot_S256x2048_S2048x2816_S256x2816_1_0_0_1_n_n none a b (constant (F := Ideal) S256x2816 .f32 0x00000000#32) (ix2 r n)
      = ∑ k : Fin 2048, a (ix2 r k) * b (ix2 k n) := by
  refine (Ideal.matmul_constant_zero_apply dot_S256x2048_S2048x2816_S256x2816_1_0_0_1_n_n none a b (ix2 r n)).trans ?_
  rw [← Equiv.sum_comp (ValueIdx.contrEquiv1 dot_S256x2048_S2048x2816_S256x2816_1_0_0_1_n_n 2048 rfl rfl).symm]
  refine Finset.sum_congr rfl fun k _ => ?_
  have hk := ValueIdx.contrEquiv1_symm_val dot_S256x2048_S2048x2816_S256x2816_1_0_0_1_n_n 2048 rfl rfl k
  have el : dot_S256x2048_S2048x2816_S256x2816_1_0_0_1_n_n.lhsIdx (ix2 r n) ((ValueIdx.contrEquiv1 dot_S256x2048_S2048x2816_S256x2816_1_0_0_1_n_n 2048 rfl rfl).symm k) = ix2 r k := funext fun a => Fin.ext (by
    match a with
    | ⟨0, _⟩ => exact lhs_mm1_0 _ _
    | ⟨1, _⟩ => exact (lhs_mm1_1 _ _).trans hk)
  have er : dot_S256x2048_S2048x2816_S256x2816_1_0_0_1_n_n.rhsIdx (ix2 r n) ((ValueIdx.contrEquiv1 dot_S256x2048_S2048x2816_S256x2816_1_0_0_1_n_n 2048 rfl rfl).symm k) = ix2 k n := funext fun a => Fin.ext (by
    match a with
    | ⟨0, _⟩ => exact (rhs_mm1_0 _ _).trans hk
    | ⟨1, _⟩ => exact rhs_mm1_1 _ _)
  rw [el, er]

theorem lhs_mm2_0 (i : S256x2048.Idx) (q : dot_S256x1408_S1408x2048_S256x2048_1_0_0_1_n_n.contr.Idx) :
    (dot_S256x1408_S1408x2048_S256x2048_1_0_0_1_n_n.lhsIdx i q 0).val = (i 0).val := by
  unfold DotDims.lhsIdx
  rw [dif_neg (show ¬(0 : Fin S256x1408.rank) ∈ dot_S256x1408_S1408x2048_S256x2048_1_0_0_1_n_n.lhsBatch by decide), dif_pos (show (0 : Fin S256x1408.rank) ∈ dot_S256x1408_S1408x2048_S256x2048_1_0_0_1_n_n.lhsNonContracting by decide)]
  rfl
theorem lhs_mm2_1 (i : S256x2048.Idx) (q : dot_S256x1408_S1408x2048_S256x2048_1_0_0_1_n_n.contr.Idx) :
    (dot_S256x1408_S1408x2048_S256x2048_1_0_0_1_n_n.lhsIdx i q 1).val = (q ⟨0, by decide⟩).val :=
  dot_S256x1408_S1408x2048_S256x2048_1_0_0_1_n_n.lhsIdx_val_of_single rfl i q
theorem rhs_mm2_0 (i : S256x2048.Idx) (q : dot_S256x1408_S1408x2048_S256x2048_1_0_0_1_n_n.contr.Idx) :
    (dot_S256x1408_S1408x2048_S256x2048_1_0_0_1_n_n.rhsIdx i q 0).val = (q ⟨0, by decide⟩).val :=
  dot_S256x1408_S1408x2048_S256x2048_1_0_0_1_n_n.rhsIdx_val_of_single rfl i q
theorem rhs_mm2_1 (i : S256x2048.Idx) (q : dot_S256x1408_S1408x2048_S256x2048_1_0_0_1_n_n.contr.Idx) :
    (dot_S256x1408_S1408x2048_S256x2048_1_0_0_1_n_n.rhsIdx i q 1).val = (i 1).val := by
  unfold DotDims.rhsIdx
  rw [dif_neg (show ¬(1 : Fin S1408x2048.rank) ∈ dot_S256x1408_S1408x2048_S256x2048_1_0_0_1_n_n.rhsBatch by decide), dif_pos (show (1 : Fin S1408x2048.rank) ∈ dot_S256x1408_S1408x2048_S256x2048_1_0_0_1_n_n.rhsNonContracting by decide)]
  rfl

/-- The second product, `256 × 1408` by `1408 × 2048`, at `(r, q)`: the sum over `n < 1408`. -/
theorem mm2_apply (a : FVec Ideal S256x1408 .bf16) (b : FVec Ideal S1408x2048 .bf16) (r : Fin 256) (n : Fin 2048) :
    matmul dot_S256x1408_S1408x2048_S256x2048_1_0_0_1_n_n none a b (constant (F := Ideal) S256x2048 .f32 0x00000000#32) (ix2 r n)
      = ∑ k : Fin 1408, a (ix2 r k) * b (ix2 k n) := by
  refine (Ideal.matmul_constant_zero_apply dot_S256x1408_S1408x2048_S256x2048_1_0_0_1_n_n none a b (ix2 r n)).trans ?_
  rw [← Equiv.sum_comp (ValueIdx.contrEquiv1 dot_S256x1408_S1408x2048_S256x2048_1_0_0_1_n_n 1408 rfl rfl).symm]
  refine Finset.sum_congr rfl fun k _ => ?_
  have hk := ValueIdx.contrEquiv1_symm_val dot_S256x1408_S1408x2048_S256x2048_1_0_0_1_n_n 1408 rfl rfl k
  have el : dot_S256x1408_S1408x2048_S256x2048_1_0_0_1_n_n.lhsIdx (ix2 r n) ((ValueIdx.contrEquiv1 dot_S256x1408_S1408x2048_S256x2048_1_0_0_1_n_n 1408 rfl rfl).symm k) = ix2 r k := funext fun a => Fin.ext (by
    match a with
    | ⟨0, _⟩ => exact lhs_mm2_0 _ _
    | ⟨1, _⟩ => exact (lhs_mm2_1 _ _).trans hk)
  have er : dot_S256x1408_S1408x2048_S256x2048_1_0_0_1_n_n.rhsIdx (ix2 r n) ((ValueIdx.contrEquiv1 dot_S256x1408_S1408x2048_S256x2048_1_0_0_1_n_n 1408 rfl rfl).symm k) = ix2 k n := funext fun a => Fin.ext (by
    match a with
    | ⟨0, _⟩ => exact (rhs_mm2_0 _ _).trans hk
    | ⟨1, _⟩ => exact rhs_mm2_1 _ _)
  rw [el, er]

/-! ## The fused projection and its two halves -/

/-- The fused gate|up projection of the chunk: rows of `x` against all `2816` columns of the fused weight. -/
def fused (v0 : FVec Ideal S2048x2816 .bf16) (v10 : FVec Ideal S256x2048 .f32) : FVec Ideal S256x2816 .f32 :=
  matmul dot_S256x2048_S2048x2816_S256x2816_1_0_0_1_n_n none (truncf .bf16 v10 bitsLt_bf16_f32)
    (shapeCast S2048x2816 v0 shapeCasts_S2048x2816_S2048x2816 : FVec Ideal S2048x2816 .bf16) (constant (F := Ideal) S256x2816 .f32 0x00000000#32)

/-- The fused projection at `(r, c)` is row `r` of `x` against column `c` of the fused weight: the reshape to the same
    shape and the change of format are the identity on extended reals. -/
theorem fused_apply (v0 : FVec Ideal S2048x2816 .bf16) (v10 : FVec Ideal S256x2048 .f32) (r : Fin 256) (c : Fin 2816) :
    fused v0 v10 (ix2 r c) = ∑ k : Fin 2048, v10 (ix2 r k) * v0 (ix2 k c) := by
  unfold fused
  rw [shapeCast_self]
  exact mm1_apply _ _ r c

/-- The gate half: columns `0 … 1407` of the fused projection. -/
def gate (v0 : FVec Ideal S2048x2816 .bf16) (v10 : FVec Ideal S256x2048 .f32) : FVec Ideal S256x1408 .f32 :=
  extractStridedSlice S256x1408 ![0, 0] (fused v0 v10) slices_S256x2816_o0_0_S256x1408

/-- The up half: columns `1408 … 2815` of the fused projection. -/
def up (v0 : FVec Ideal S2048x2816 .bf16) (v10 : FVec Ideal S256x2048 .f32) : FVec Ideal S256x1408 .f32 :=
  extractStridedSlice S256x1408 ![0, 1408] (fused v0 v10) slices_S256x2816_o0_1408_S256x1408

/-- The gate half at `(r, n)` is the fused projection at column `n`: the slice at offset `(0, 0)`. -/
theorem gate_ix (v0 : FVec Ideal S2048x2816 .bf16) (v10 : FVec Ideal S256x2048 .f32) (r : Fin 256) (n : Fin 1408) :
    gate v0 v10 (ix2 r n) = fused v0 v10 (ix2 r (gateCol n)) := by
  unfold gate
  have hk : ∀ a : Fin S256x2816.rank, ((ix2 r (gateCol n) : S256x2816.Idx) a).val
      = (![0, 0] : Fin S256x2816.rank → Nat) a + ((ix2 r n : S256x1408.Idx) (a.cast slices_S256x2816_o0_0_S256x1408.1.symm)).val := fun a => by
    match a with
    | ⟨0, _⟩ => exact (Nat.zero_add _).symm
    | ⟨1, _⟩ => exact (Nat.zero_add _).symm
  exact extractStridedSlice_apply (s := S256x2816) (t := S256x1408) ![0, 0] (fused v0 v10) slices_S256x2816_o0_0_S256x1408 (ix2 r n) (ix2 r (gateCol n)) hk

/-- The up half at `(r, n)` is the fused projection at column `1408 + n`: the slice at offset `(0, 1408)`. -/
theorem up_ix (v0 : FVec Ideal S2048x2816 .bf16) (v10 : FVec Ideal S256x2048 .f32) (r : Fin 256) (n : Fin 1408) :
    up v0 v10 (ix2 r n) = fused v0 v10 (ix2 r (upCol n)) := by
  unfold up
  have hk : ∀ a : Fin S256x2816.rank, ((ix2 r (upCol n) : S256x2816.Idx) a).val
      = (![0, 1408] : Fin S256x2816.rank → Nat) a + ((ix2 r n : S256x1408.Idx) (a.cast slices_S256x2816_o0_1408_S256x1408.1.symm)).val := fun a => by
    match a with
    | ⟨0, _⟩ => exact (Nat.zero_add _).symm
    | ⟨1, _⟩ => rfl
  exact extractStridedSlice_apply (s := S256x2816) (t := S256x1408) ![0, 1408] (fused v0 v10) slices_S256x2816_o0_1408_S256x1408 (ix2 r n) (ix2 r (upCol n)) hk

/-- The gate half at `(r, n)` is the gate projection of row `r` at channel `n`. -/
theorem gate_apply (v0 : FVec Ideal S2048x2816 .bf16) (v10 : FVec Ideal S256x2048 .f32) (r : Fin 256) (n : Fin 1408) :
    gate v0 v10 (ix2 r n)
      = projF (fun r k => v10 (ix2 r k)) (fun k n => v0 (ix2 k (gateCol n))) r n := by
  rw [gate_ix, fused_apply]
  rfl

/-- The up half at `(r, n)` is the up projection of row `r` at channel `n`. -/
theorem up_apply (v0 : FVec Ideal S2048x2816 .bf16) (v10 : FVec Ideal S256x2048 .f32) (r : Fin 256) (n : Fin 1408) :
    up v0 v10 (ix2 r n)
      = projF (fun r k => v10 (ix2 r k)) (fun k n => v0 (ix2 k (upCol n))) r n := by
  rw [up_ix, fused_apply]
  rfl

/-! ## The gated activation and the payload -/

/-- The activation vector `(g · σ(g)) · u`, in the narrow format the second product reads (the same extended real). -/
def act (v0 : FVec Ideal S2048x2816 .bf16) (v10 : FVec Ideal S256x2048 .f32) : FVec Ideal S256x1408 .bf16 :=
  truncf .bf16 (mulf (mulf (gate v0 v10) (logistic (gate v0 v10))) (up v0 v10)) bitsLt_bf16_f32

/-- The activation vector at `(r, n)` is the specification's gated activation of row `r` at channel `n`: the
    elementwise operations act on the element, and the two halves are the two projections. -/
theorem act_apply (v0 : FVec Ideal S2048x2816 .bf16) (v10 : FVec Ideal S256x2048 .f32) (r : Fin 256) (n : Fin 1408) :
    act v0 v10 (ix2 r n)
      = actF (fun r k => v10 (ix2 r k)) (fun k n => v0 (ix2 k (gateCol n))) (fun k n => v0 (ix2 k (upCol n))) r n := by
  show gate v0 v10 (ix2 r n) * Ideal.logistic (gate v0 v10 (ix2 r n)) * up v0 v10 (ix2 r n) = _
  rw [gate_apply, up_apply]
  rfl

/-- The payload is the second product of the activation vector and the down weight. -/
theorem pay_eq (v0 : FVec Ideal S2048x2816 .bf16) (v2 : FVec Ideal S1408x2048 .bf16) (v10 : FVec Ideal S256x2048 .f32) :
    k0_pay1 (F := Ideal) v0 v2 v10
      = matmul dot_S256x1408_S1408x2048_S256x2048_1_0_0_1_n_n none (act v0 v10)
          (shapeCast S1408x2048 v2 shapeCasts_S1408x2048_S1408x2048 : FVec Ideal S1408x2048 .bf16) (constant (F := Ideal) S256x2048 .f32 0x00000000#32) := rfl

/-- One 256-row chunk's stored value at `(r, q)`: the expert's output of the chunk's rows, with the gate weight the
    fused weight's columns `0 … 1407` and the up weight its columns `1408 … 2815`. -/
theorem pay_apply (v0 : Vec Ideal S2048x2816 .bf16) (v2 : Vec Ideal S1408x2048 .bf16) (v10 : Vec Ideal S256x2048 .f32)
    (r : Fin 256) (q : Fin 2048) :
    k0_pay1 (F := Ideal) v0 v2 v10 (ix2 r q)
      = moeF (fun r k => v10 (ix2 r k)) (fun k n => v0 (ix2 k (gateCol n))) (fun k n => v0 (ix2 k (upCol n)))
          (fun n j => v2 (ix2 n j)) r q := by
  rw [pay_eq, shapeCast_self]
  refine (mm2_apply _ _ r q).trans ?_
  unfold moeF
  exact Finset.sum_congr rfl fun n _ => by rw [act_apply]

end Cert.Moe.KPayload

end
-- ==== Proof.KArray.lean ====
import proofs.«431011_j53042846105776_3_alg».proof.Proof.Gen.KernelIdeal.Value
import proofs.«431011_j53042846105776_3_alg».proof.Proof.KHost
import proofs.«431011_j53042846105776_3_alg».proof.Proof.KTrip
import proofs.«431011_j53042846105776_3_alg».proof.Proof.KPayload

noncomputable section

open scoped BigOperators

namespace Cert.Moe.KArray

open Cert.KernelIdeal Cert.KernelIdeal.Gen Idealize.ShloMosaic Idealize.ShloMosaic.TcCoe Idealize.ShloMosaic.ValueIdx Idealize.SL.Sem
open Idealize.ShloMosaic.Pipeline (Dat)
open Cert.Moe Cert.Moe.KHost

variable (m : (ℓ : Loc nD τ sig) → Buf (Elt Ideal) ℓ) (ρ : Dev nD → PrngReg)

/-! ## One row of an output block

Row `p` of what a grid point leaves in its output block is the expert's output of row `p` of the point's block of
`x`: the row lies in the chunk of 256 rows numbered `p / 256`, at place `p % 256` there, and
`256 · (p / 256) + p % 256 = p`. The gate and up weights are the two halves of the columns of the fused weight block. -/

/-- Two rank-2 indices with equal coordinates are equal. -/
theorem ix2_congr {n0 n1 : Nat} {a a' : Fin n0} {b b' : Fin n1} (ha : a.val = a'.val) (hb : b.val = b'.val) :
    ix2 a b = ix2 a' b' := by
  rw [Fin.ext ha, Fin.ext hb]

/-- If row `p` of the block `x0` is row `r` of `Xa`, and the weight blocks read as `G`, `U`, `D`, then row `p` of the
    output block is row `r` of the expert's output of `Xa`. -/
theorem block_row (c : Dev nD) (i : grid0.Coords) (arg1 : Memref sig .tc .vmem S512x2048 .f32) (harg1 : arg1.IsWhole)
    (arg2 : Memref sig .tc .vmem S2048x2816 .bf16) (harg2 : arg2.IsWhole) (arg3 : Memref sig .tc .vmem S1408x2048 .bf16) (harg3 : arg3.IsWhole)
    (arg4 : Memref sig .tc .vmem S512x2048 .f32) (harg4 : arg4.IsWhole)
    (x0 : Vec Ideal S512x2048 .f32) (x1 : Vec Ideal S2048x2816 .bf16) (x2 : Vec Ideal S1408x2048 .bf16)
    (Xa : Fin 16384 → Fin 2048 → EReal) (G U : Fin 2048 → Fin 1408 → EReal) (D : Fin 1408 → Fin 2048 → EReal)
    (p : Fin 512) (r : Fin 16384)
    (hx : ∀ k : Fin 2048, x0 (ix2 p k) = Xa r k)
    (hg : ∀ (k : Fin 2048) (n : Fin 1408), x1 (ix2 k (gateCol n)) = G k n)
    (hu : ∀ (k : Fin 2048) (n : Fin 1408), x1 (ix2 k (upCol n)) = U k n)
    (hd : ∀ (n : Fin 1408) (j : Fin 2048), x2 (ix2 n j) = D n j) (q : Fin 2048) :
    out0_A_3 (F := Ideal) c i arg1 harg1 arg2 harg2 arg3 harg3 arg4 harg4 x0 x1 x2 (ix2 p q) = moeF Xa G U D r q := by
  have hp : p.val < 512 := p.isLt
  refine (KTrip.out_apply c i arg1 harg1 arg2 harg2 arg3 harg3 arg4 harg4 x0 x1 x2 p q).trans ?_
  refine (KPayload.pay_apply x1 x2 (KTrip.chunk x0 (⟨p.val / 256, by omega⟩ : Fin 2)) (⟨p.val % 256, by omega⟩ : Fin 256) q).trans ?_
  rw [show (fun (k : Fin 2048) (n : Fin 1408) => x1 (ix2 k (gateCol n))) = G from funext fun k => funext fun n => hg k n,
    show (fun (k : Fin 2048) (n : Fin 1408) => x1 (ix2 k (upCol n))) = U from funext fun k => funext fun n => hu k n,
    show (fun (n : Fin 1408) (j : Fin 2048) => x2 (ix2 n j)) = D from funext fun n => funext fun j => hd n j]
  refine moeF_row _ Xa G U D _ r (fun k => ?_) q
  refine Eq.trans ?_ (hx k)
  show x0 (ix2 (⟨256 * (p.val / 256) + p.val % 256, _⟩ : Fin 512) (⟨k.val, _⟩ : Fin 2048)) = x0 (ix2 p k)
  exact congrArg x0 (ix2_congr (Nat.div_add_mod p.val 256) rfl)

/-! ## The windows' blocks as rows and columns of the arrays

A block's array coordinate on an axis is the block index times the block's size plus the coordinate inside the block.
The block of `x` and the output block at grid point `t` are rows `512·t … 512·t + 511`; the two weight blocks are the
whole weight arrays at every point. -/

/-- The block indices of the four windows at each of the 32 grid points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of grid point `t`'s block of rows is row `512·t + p` of the array. -/
abbrev rowOf (t : Fin cfg0.N) (p : Fin 512) : Fin 16384 :=
  ⟨512 * t.val + p.val, by have ht : t.val < 32 := lt_of_lt_of_eq t.isLt N_0; have hp := p.isLt; omega⟩

/-- The block of `x` at grid point `t`. -/
abbrev xblk (c : Dev nD) (t : Fin cfg0.N) : Vec Ideal S512x2048 .f32 := iblk m c 0 t
/-- The block of the fused gate|up weight at grid point `t`. -/
abbrev gublk (c : Dev nD) (t : Fin cfg0.N) : Vec Ideal S2048x2816 .bf16 := iblk m c 1 t
/-- The block of the down weight at grid point `t`. -/
abbrev dblk (c : Dev nD) (t : Fin cfg0.N) : Vec Ideal S1408x2048 .bf16 := iblk m c 2 t

/-- Row `p` of the block of `x` at point `t` is row `512·t + p` of `x`. -/
theorem xblk_apply (c : Dev nD) (t : Fin cfg0.N) (p : Fin 512) (k : Fin 2048) :
    xblk m c t (ix2 p k) = X m c (rowOf t p) k := by
  obtain ⟨e0, e1, -⟩ := idx_facts t
  have hi : ((cfg0.win 0).blk t).view.emb (ix2 p k) = ix2 (rowOf t p) k := funext fun a => Fin.ext (by
    match a with
    | ⟨0, _⟩ => show win0_0.index t (0 : Fin 2) * 512 + 1 * p.val = 512 * t.val + p.val; omega
    | ⟨1, _⟩ => show win0_0.index t (1 : Fin 2) * 2048 + 1 * k.val = k.val; omega)
  show V m c main_arg0 (((cfg0.win 0).blk t).view.emb (ix2 p k)) = m ((c : Thread nD τ).loc main_arg0) (ix2 (rowOf t p) k)
  rw [hi, V_main_arg0]

/-- The fused weight's block at any point is the whole fused weight. -/
theorem gublk_apply (c : Dev nD) (t : Fin cfg0.N) (k : Fin 2048) (n : Fin 2816) :
    gublk m c t (ix2 k n) = V m c main_v35 (ix2 k n) := by
  obtain ⟨-, -, e0, e1, -⟩ := idx_facts t
  have hi : ((cfg0.win 1).blk t).view.emb (ix2 k n) = ix2 k n := funext fun a => Fin.ext (by
    match a with
    | ⟨0, _⟩ => show win0_1.index t (0 : Fin 2) * 2048 + 1 * k.val = k.val; omega
    | ⟨1, _⟩ => show win0_1.index t (1 : Fin 2) * 2816 + 1 * n.val = n.val; omega)
  show V m c main_v35 (((cfg0.win 1).blk t).view.emb (ix2 k n)) = V m c main_v35 (ix2 k n)
  rw [hi]

/-- The down weight's block at any point is the whole down weight. -/
theorem dblk_apply (c : Dev nD) (t : Fin cfg0.N) (n : Fin 1408) (j : Fin 2048) :
    dblk m c t (ix2 n j) = V m c main_v68 (ix2 n j) := by
  obtain ⟨-, -, -, -, e0, e1, -⟩ := idx_facts t
  have hi : ((cfg0.win 2).blk t).view.emb (ix2 n j) = ix2 n j := funext fun a => Fin.ext (by
    match a with
    | ⟨0, _⟩ => show win0_2.index t (0 : Fin 2) * 1408 + 1 * n.val = n.val; omega
    | ⟨1, _⟩ => show win0_2.index t (1 : Fin 2) * 2048 + 1 * j.val = j.val; omega)
  show V m c main_v68 (((cfg0.win 2).blk t).view.emb (ix2 n j)) = V m c main_v68 (ix2 n j)
  rw [hi]

/-- The gate columns of the fused weight's block are the gate weight. -/
theorem gublk_gate (c : Dev nD) (t : Fin cfg0.N) (k : Fin 2048) (n : Fin 1408) :
    gublk m c t (ix2 k (gateCol n)) = Wg m c k n :=
  (gublk_apply m c t k (gateCol n)).trans (V_wgu_gate m c k n)

/-- The up columns of the fused weight's block are the up weight. -/
theorem gublk_up (c : Dev nD) (t : Fin cfg0.N) (k : Fin 2048) (n : Fin 1408) :
    gublk m c t (ix2 k (upCol n)) = Wu m c k n :=
  (gublk_apply m c t k (upCol n)).trans (V_wgu_up m c k n)

/-- The down weight's block is the down weight. -/
theorem dblk_wd (c : Dev nD) (t : Fin cfg0.N) (n : Fin 1408) (j : Fin 2048) :
    dblk m c t (ix2 n j) = Wd m c n j :=
  (dblk_apply m c t n j).trans (V_wd m c n j)

/-! ## What a grid point writes back, the cover, and the array after the run -/

/-- Grid point `t` writes back rows `512·t … 512·t + 511` of the expert's output of the argument arrays. -/
theorem flushed_eq (c : Dev nD) (t : Fin cfg0.N) :
    (dats m 0 c).flushed 3 t
      = ((cfg0.win 3).blk t).view.read (Elt Ideal) (moeArr (X m c) (Wg m c) (Wu m c) (Wd m c)) := by
  rw [Cert.KernelIdeal.Value.flushed3_A]
  obtain ⟨-, -, -, -, -, -, e0, e1⟩ := idx_facts t
  funext y
  have hy0 : (y 0).val < 512 := (y 0).isLt
  have hy1 : (y 1).val < 2048 := (y 1).isLt
  have hy : (cfg0.win 3).xinj (grid0.coords t) y = ix2 (⟨(y 0).val, hy0⟩ : Fin 512) (⟨(y 1).val, hy1⟩ : Fin 2048) :=
    funext fun a => by
      match a with
      | ⟨0, _⟩ => rfl
      | ⟨1, _⟩ => rfl
  have hi : ((cfg0.win 3).blk t).view.emb y = ix2 (rowOf t (⟨(y 0).val, hy0⟩ : Fin 512)) (⟨(y 1).val, hy1⟩ : Fin 2048) :=
    funext fun a => Fin.ext (by
      match a with
      | ⟨0, _⟩ => show win0_3.index t (0 : Fin 2) * 512 + 1 * (y 0).val = 512 * t.val + (y 0).val; omega
      | ⟨1, _⟩ => show win0_3.index t (1 : Fin 2) * 2048 + 1 * (y 1).val = (y 1).val; omega)
  show out0_A_3 (F := Ideal) c (grid0.coords t) (ms0_0 t) (hs0_0 t) (ms0_1 t) (hs0_1 t) (ms0_2 t) (hs0_2 t) (ms0_3 t) (hs0_3 t)
      (xblk m c t) (gublk m c t) (dblk m c t) ((cfg0.win 3).xinj (grid0.coords t) y)
    = moeArr (X m c) (Wg m c) (Wu m c) (Wd m c) (((cfg0.win 3).blk t).view.emb y)
  rw [hy, hi]
  exact block_row c (grid0.coords t) (ms0_0 t) (hs0_0 t) (ms0_1 t) (hs0_1 t) (ms0_2 t) (hs0_2 t) (ms0_3 t) (hs0_3 t)
    (xblk m c t) (gublk m c t) (dblk m c t) (X m c) (Wg m c) (Wu m c) (Wd m c)
    (⟨(y 0).val, hy0⟩ : Fin 512) (rowOf t (⟨(y 0).val, hy0⟩ : Fin 512))
    (fun k => xblk_apply m c t (⟨(y 0).val, hy0⟩ : Fin 512) k) (gublk_gate m c t) (gublk_up m c t) (dblk_wd m c t)
    (⟨(y 1).val, hy1⟩ : Fin 2048)

/-- An index of the output array is in point `t`'s block iff each coordinate is in the block's range on its axis. -/
theorem mem_blk (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v69).slice (win0_3.rect t)).set ↔ _
  rw [View.set_slice_whole, Rect.mem_set_unit]
  exact Iff.rfl

/-- Every index of the output array is in the block of the grid point numbered by its row divided by 512. -/
theorem cover (i : S16384x2048.Idx) :
    ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ : ∃ t : Fin cfg0.N, t.val = (i 0).val / 512 :=
    ⟨⟨(i 0).val / 512, by rw [show cfg0.N = 32 from N_0]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 2048 ≤ (i 1).val ∧ (i 1).val < win0_3.index t (1 : Fin 2) * 2048 + 2048
    omega

/-- After the run the output array is the expert's output of the argument arrays. -/
theorem final (c : Dev nD) : (dats m 0 c).arrAt 3 cfg0.N = moeArr (X m c) (Wg m c) (Wu m c) (Wd m c) :=
  (dats m 0 c).arrAt_eq_of_cover 3 (moeArr (X m c) (Wg m c) (Wu m c) (Wd m c)) (fun t _ => flushed_eq m c t) cover

/-- The idealized kernel's run with its result named. -/
theorem kernel_run : θ_run defs (onTc (τ := τ) (main (F := Ideal))) ⟨m, fun _ => 0, ρ⟩ fun r => ∀ c : Dev nD,
      r.2.mem ((c : Thread nD τ).loc main_v69) = moeArr (X m c) (Wg m c) (Wu m c) (Wd m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Cert.KernelIdeal.Value.run_blocks m ρ)

end Cert.Moe.KArray

end
-- ==== Proof.RefMoe.lean ====
import proofs.«431011_j53042846105776_3_alg».proof.Proof.Gen.ReferenceIdeal.Read
import proofs.«431011_j53042846105776_3_alg».proof.Proof.Spec
import Idealize.ShloMosaic.Lib.IdealHost

noncomputable section

open scoped BigOperators

namespace Cert.Moe.RefMoe

open Cert.ReferenceIdeal Cert.ReferenceIdeal.Gen Cert.ReferenceIdeal.Read Idealize.ShloMosaic Idealize.ShloMosaic.TcCoe Idealize.ShloMosaic.ValueIdx Cert.Moe

/-- The reference's gated unit at one element: `g · (1 / (1 + e^(-g)))` with the literal one is `g · σ(g)`. -/
theorem silu_eq (g : EReal) :
    g * Ideal.div (Ideal.ofBits .f32 0x3F800000#32) (Ideal.ofBits .f32 0x3F800000#32 + Ideal.exp (-g))
      = g * Ideal.logistic g := by
  rw [Ideal.ofBits_one_f32]; rfl

/-- The reference's result is the expert's output of its input and its three dequantized weights. -/
theorem ref_eq (x0 : (⟨S16384x2048, .f32⟩ : BufTy).Contents (Elt Ideal)) (x1 : (⟨S256x1408, .i32⟩ : BufTy).Contents (Elt Ideal))
    (x2 : (⟨S16x176, .i32⟩ : BufTy).Contents (Elt Ideal)) (x3 : (⟨S16x1408, .f32⟩ : BufTy).Contents (Elt Ideal))
    (x4 : (⟨S256x1408, .i32⟩ : BufTy).Contents (Elt Ideal)) (x5 : (⟨S16x176, .i32⟩ : BufTy).Contents (Elt Ideal))
    (x6 : (⟨S16x1408, .f32⟩ : BufTy).Contents (Elt Ideal)) (x7 : (⟨S176x2048, .i32⟩ : BufTy).Contents (Elt Ideal))
    (x8 : (⟨S11x256, .i32⟩ : BufTy).Contents (Elt Ideal)) (x9 : (⟨S11x2048, .f32⟩ : BufTy).Contents (Elt Ideal)) :
    val_main_v100 (F := Ideal) x0 x1 x2 x3 x4 x5 x6 x7 x8 x9
      = moeArr (fun t k => x0 (ix2 t k)) (fun k n => val_main_v31 (F := Ideal) x1 x2 x3 (ix2 k n))
          (fun k n => val_main_v63 (F := Ideal) x4 x5 x6 (ix2 k n)) (fun n j => val_main_v95 (F := Ideal) x7 x8 x9 (ix2 n j)) := by
  funext i
  obtain ⟨t, j, rfl⟩ : ∃ (t : Fin 16384) (j : Fin 2048), i = ix2 t j := ⟨i 0, i 1, eq_ix2 i⟩
  rw [moeArr_ix2]
  unfold moeF actF projF
  rw [val_main_v100_apply]
  refine Finset.sum_congr rfl fun n _ => ?_
  -- the contraction index `n` of the last product: row `t` of the activation, row `n` of the down weight
  have e1 : lidx_main_v100 (ix2 t j) n = ix2 t n :=
    funext fun a => Fin.ext (by match a with | ⟨0, _⟩ => rfl | ⟨1, _⟩ => rfl)
  have e2 : ridx_main_v100 (ix2 t j) n = ix2 n j :=
    funext fun a => Fin.ext (by match a with | ⟨0, _⟩ => rfl | ⟨1, _⟩ => rfl)
  -- the contraction index `k` of the two projections: row `t` of the input, row `k` of the gate / up weight
  have e3 : ∀ k : Fin 2048, lidx_main_v96 (ix2 t n) k = ix2 t k := fun k =>
    funext fun a => Fin.ext (by match a with | ⟨0, _⟩ => rfl | ⟨1, _⟩ => rfl)
  have e4 : ∀ k : Fin 2048, ridx_main_v96 (ix2 t n) k = ix2 k n := fun k =>
    funext fun a => Fin.ext (by match a with | ⟨0, _⟩ => rfl | ⟨1, _⟩ => rfl)
  have e5 : ∀ k : Fin 2048, lidx_main_v98 (ix2 t n) k = ix2 t k := fun k =>
    funext fun a => Fin.ext (by match a with | ⟨0, _⟩ => rfl | ⟨1, _⟩ => rfl)
  have e6 : ∀ k : Fin 2048, ridx_main_v98 (ix2 t n) k = ix2 k n := fun k =>
    funext fun a => Fin.ext (by match a with | ⟨0, _⟩ => rfl | ⟨1, _⟩ => rfl)
  rw [e1, e2, val_main_v99_apply, val_main_v97_apply, val_main_call0_v5_apply, val_main_call0_v4_apply,
    val_main_call0_cst_0_apply, val_main_call0_v3_apply, val_main_call0_v2_apply, val_main_call0_cst_apply,
    val_main_call0_v1_apply, val_main_call0_v0_apply, val_main_v96_apply, val_main_v98_apply]
  simp only [e3, e4, e5, e6, Ideal.mulf_def, Ideal.hostDivf_def, Ideal.addf_def, Ideal.hostUnary_exp_def,
    Ideal.hostNegf_def, Ideal.negf_def, Ideal.ofBits_def]
  rw [silu_eq]

end Cert.Moe.RefMoe

end
-- ==== Proof.lean ====
/-
  The certificate of the fused quantized expert: a GPTQ-quantized gate|up projection, the gated activation
  (g · σ(g)) · u, and the quantized down projection, over 16384 token rows.

  The kernel dequantizes the gate and up weights in ONE pass over their packed words concatenated along the output
  axis, multiplies 256 rows at a time against the fused [2048, 2816] weight, splits the product into its gate half
  and its up half, and multiplies the activation against the down weight; the reference dequantizes the three
  weights separately and applies three whole matrix products. At the ideal instance a change of float format is
  the identity and a matrix product is the plain sum over the contracted axis, so both sides are, entry by entry,
    out[t, j] = Σ_n ((g · σ(g)) · u) · Wd[n, j],   g = Σ_k x[t,k] · Wg[k,n],   u = Σ_k x[t,k] · Wu[k,n]
  with the same three weights: concatenating packed words and then unpacking is unpacking and then concatenating,
  because 1408 is a multiple of 8 (no packed zero-point word straddles the gate|up boundary), and the kernel's one
  sigmoid operation is the reference's 1 / (1 + e^(-g)).
-/
import proofs.«431011_j53042846105776_3_alg».proof.Defs
import proofs.«431011_j53042846105776_3_alg».proof.Proof.Gen.Kernel
import proofs.«431011_j53042846105776_3_alg».proof.Proof.Gen.Kernel.Skeleton
import proofs.«431011_j53042846105776_3_alg».proof.Proof.Gen.Kernel.Loops
import proofs.«431011_j53042846105776_3_alg».proof.Proof.Gen.Kernel.Launch
import proofs.«431011_j53042846105776_3_alg».proof.Proof.Gen.Kernel.Points
import proofs.«431011_j53042846105776_3_alg».proof.Proof.Gen.Kernel.Frame
import proofs.«431011_j53042846105776_3_alg».proof.Proof.Gen.KernelIdeal
import proofs.«431011_j53042846105776_3_alg».proof.Proof.Gen.KernelIdeal.Skeleton
import proofs.«431011_j53042846105776_3_alg».proof.Proof.Gen.KernelIdeal.Loops
import proofs.«431011_j53042846105776_3_alg».proof.Proof.Gen.KernelIdeal.Launch
import proofs.«431011_j53042846105776_3_alg».proof.Proof.Gen.KernelIdeal.Points
import proofs.«431011_j53042846105776_3_alg».proof.Proof.Gen.KernelIdeal.Frame
import proofs.«431011_j53042846105776_3_alg».proof.Proof.Gen.ReferenceIdeal
import proofs.«431011_j53042846105776_3_alg».proof.Proof.Gen.Pre_finite_inputs
import proofs.«431011_j53042846105776_3_alg».proof.Proof.Gen.KernelIdeal.Value
import proofs.«431011_j53042846105776_3_alg».proof.Proof.Gen.ReferenceIdeal.Run
import proofs.«431011_j53042846105776_3_alg».proof.Proof.Gen.ReferenceIdeal.Read
import Idealize.ShloMosaic.Adequacy
import Idealize.ShloMosaic.Init

import proofs.«431011_j53042846105776_3_alg».proof.Proof.KArray
import proofs.«431011_j53042846105776_3_alg».proof.Proof.RefMoe

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at the expert's output of the (agreeing) argument arrays. -/
theorem algebraic : Cert.algebraic_KernelIdeal_ReferenceIdeal := by
  intro m ρ m' ρ' _ hagree
  refine ⟨fun c => Cert.Moe.moeArr (Cert.Moe.KHost.X m c) (Cert.Moe.KHost.Wg m c) (Cert.Moe.KHost.Wu m c) (Cert.Moe.KHost.Wd m c),
    Cert.Moe.KArray.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v100_eq, Cert.Moe.RefMoe.ref_eq]
  obtain ⟨h0, h1, h2, h3, h4, h5, h6, h7, h8, h9⟩ := hagree c
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
